-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x1024 : Shape := ⟨3, ![2048, 128, 1024]⟩
abbrev S2048x1024 : Shape := ⟨2, ![2048, 1024]⟩
abbrev S2048x8 : Shape := ⟨2, ![2048, 8]⟩
abbrev S_ : Shape := ⟨0, ![]⟩

class Facts : Prop where
  bcast_S_S2048x128x1024 : S_.BroadcastsInDim S2048x128x1024 (![] : Fin 0 → Fin S2048x128x1024.rank)
  reducesTo_S2048x128x1024_S_d0_1_2 : S2048x128x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048x8 : S_.BroadcastsInDim S2048x8 (![] : Fin 0 → Fin S2048x8.rank)
  reducesTo_S2048x8_S_d0_1 : S2048x8.ReducesTo [0, 1] S_

variable [Facts]

def fn_part1 {F : FTy → Type} [FloatOps F] (main_arg2 : IVec S2048x8 32) (main_v13 : IVec S_ 1) (main_v15 : IVec S2048x8 1) (main_c_5 : IVec S_ 32) : IVec S_ 1 :=
  let main_v16 : IVec S2048x8 32 := broadcastInDim S2048x8 ![] bcast_S_S2048x8 main_c_5
  let main_v17 : IVec S2048x8 1 := cmpi .slt main_arg2 main_v16
  let main_v18 : IVec S2048x8 1 := andi main_v15 main_v17
  let main_c_6 : IVec S_ 1 := constantI S_ 1 1#1
  let main_v19 : IVec S_ 1 := (fun x v => Host.reduce IntOp.andi x v reducesTo_S2048x8_S_d0_1 h_S_) main_v18 main_c_6
  let main_v20 : IVec S_ 1 := andi main_v13 main_v19
  main_v20

def fn {F : FTy → Type} [FloatOps F] (main_arg0 : FVec F S2048x128x1024 .f32) (main_arg1 : FVec F S2048x1024 .f32) (main_arg2 : IVec S2048x8 32) (main_arg3 : FVec F S2048x8 .f32) : IVec S_ 1 :=
  let main_v0 : FVec F S2048x128x1024 .f32 := Host.absf main_arg0
  let main_cst : FVec F S_ .f32 := constant S_ .f32 0x7F800000#32
  let main_v1 : FVec F S2048x128x1024 .f32 := broadcastInDim S2048x128x1024 ![] bcast_S_S2048x128x1024 main_cst
  let main_v2 : IVec S2048x128x1024 1 := cmpf .olt main_v0 main_v1
  let main_c : IVec S_ 1 := constantI S_ 1 1#1
  let main_v3 : IVec S_ 1 := (fun x v => Host.reduce IntOp.andi x v reducesTo_S2048x128x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x8 .f32 := Host.absf main_arg3
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_c_4 : IVec S_ 32 := constantI S_ 32 0#32
  let main_v14 : IVec S2048x8 32 := broadcastInDim S2048x8 ![] bcast_S_S2048x8 main_c_4
  let main_v15 : IVec S2048x8 1 := cmpi .sge main_arg2 main_v14
  let main_c_5 : IVec S_ 32 := constantI S_ 32 128#32
  fn_part1 (F := F) main_arg2 main_v13 main_v15 main_c_5
-- ==== Kernel.lean ====
abbrev S2048x128x1024 : Shape := ⟨3, ![2048, 128, 1024]⟩
abbrev S2048x1024 : Shape := ⟨2, ![2048, 1024]⟩
abbrev S2048x8 : Shape := ⟨2, ![2048, 8]⟩
abbrev S128 : Shape := ⟨1, ![128]⟩
abbrev S1x128 : Shape := ⟨2, ![1, 128]⟩
abbrev S_ : Shape := ⟨0, ![]⟩
abbrev S2048x128 : Shape := ⟨2, ![2048, 128]⟩
abbrev S2048x1 : Shape := ⟨2, ![2048, 1]⟩
abbrev S16x128x1024 : Shape := ⟨3, ![16, 128, 1024]⟩
abbrev S16x1024 : Shape := ⟨2, ![16, 1024]⟩
abbrev S16x128 : Shape := ⟨2, ![16, 128]⟩
abbrev S16x128x256 : Shape := ⟨3, ![16, 128, 256]⟩
abbrev S16x256 : Shape := ⟨2, ![16, 256]⟩
abbrev S16x1x256 : Shape := ⟨3, ![16, 1, 256]⟩
abbrev S16x128x1 : Shape := ⟨3, ![16, 128, 1]⟩

abbrev nBuf : Space → Nat
  | .hbm => 65
  | .vmem => 8
  | .smem => 0
  | _ => 0

abbrev bufTy : (tb : Table) → Fin (tcTables nBuf tb) → BufTy
  | .hbm, ⟨0, _⟩ => ⟨S2048x128x1024, .f32⟩
  | .hbm, ⟨1, _⟩ => ⟨S2048x1024, .f32⟩
  | .hbm, ⟨2, _⟩ => ⟨S2048x8, .i32⟩
  | .hbm, ⟨3, _⟩ => ⟨S2048x8, .f32⟩
  | .hbm, ⟨4, _⟩ => ⟨S128, .i32⟩
  | .hbm, ⟨5, _⟩ => ⟨S1x128, .i32⟩
  | .hbm, ⟨6, _⟩ => ⟨S_, .f32⟩
  | .hbm, ⟨7, _⟩ => ⟨S2048x128, .f32⟩
  | .hbm, ⟨8, _⟩ => ⟨S2048x1, .i32⟩
  | .hbm, ⟨9, _⟩ => ⟨S2048x128, .i32⟩
  | .hbm, ⟨10, _⟩ => ⟨S2048x128, .i32⟩
  | .hbm, ⟨11, _⟩ => ⟨S2048x128, .i1⟩
  | .hbm, ⟨12, _⟩ => ⟨S2048x1, .f32⟩
  | .hbm, ⟨13, _⟩ => ⟨S2048x128, .f32⟩
  | .hbm, ⟨14, _⟩ => ⟨S2048x128, .f32⟩
  | .hbm, ⟨15, _⟩ => ⟨S2048x1, .i32⟩
  | .hbm, ⟨16, _⟩ => ⟨S2048x128, .i32⟩
  | .hbm, ⟨17, _⟩ => ⟨S2048x128, .i32⟩
  | .hbm, ⟨18, _⟩ => ⟨S2048x128, .i1⟩
  | .hbm, ⟨19, _⟩ => ⟨S2048x1, .f32⟩
  | .hbm, ⟨20, _⟩ => ⟨S2048x128, .f32⟩
  | .hbm, ⟨21, _⟩ => ⟨S2048x128, .f32⟩
  | .hbm, ⟨22, _⟩ => ⟨S2048x1, .i32⟩
  | .hbm, ⟨23, _⟩ => ⟨S2048x128, .i32⟩
  | .hbm, ⟨24, _⟩ => ⟨S2048x128, .i32⟩
  | .hbm, ⟨25, _⟩ => ⟨S2048x128, .i1⟩
  | .hbm, ⟨26, _⟩ => ⟨S2048x1, .f32⟩
  | .hbm, ⟨27, _⟩ => ⟨S2048x128, .f32⟩
  | .hbm, ⟨28, _⟩ => ⟨S2048x128, .f32⟩
  | .hbm, ⟨29, _⟩ => ⟨S2048x1, .i32⟩
  | .hbm, ⟨30, _⟩ => ⟨S2048x128, .i32⟩
  | .hbm, ⟨31, _⟩ => ⟨S2048x128, .i32⟩
  | .hbm, ⟨32, _⟩ => ⟨S2048x128, .i1⟩
  | .hbm, ⟨33, _⟩ => ⟨S2048x1, .f32⟩
  | .hbm, ⟨34, _⟩ => ⟨S2048x128, .f32⟩
  | .hbm, ⟨35, _⟩ => ⟨S2048x128, .f32⟩
  | .hbm, ⟨36, _⟩ => ⟨S2048x1, .i32⟩
  | .hbm, ⟨37, _⟩ => ⟨S2048x128, .i32⟩
  | .hbm, ⟨38, _⟩ => ⟨S2048x128, .i32⟩
  | .hbm, ⟨39, _⟩ => ⟨S2048x128, .i1⟩
  | .hbm, ⟨40, _⟩ => ⟨S2048x1, .f32⟩
  | .hbm, ⟨41, _⟩ => ⟨S2048x128, .f32⟩
  | .hbm, ⟨42, _⟩ => ⟨S2048x128, .f32⟩
  | .hbm, ⟨43, _⟩ => ⟨S2048x1, .i32⟩
  | .hbm, ⟨44, _⟩ => ⟨S2048x128, .i32⟩
  | .hbm, ⟨45, _⟩ => ⟨S2048x128, .i32⟩
  | .hbm, ⟨46, _⟩ => ⟨S2048x128, .i1⟩
  | .hbm, ⟨47, _⟩ => ⟨S2048x1, .f32⟩
  | .hbm, ⟨48, _⟩ => ⟨S2048x128, .f32⟩
  | .hbm, ⟨49, _⟩ => ⟨S2048x128, .f32⟩
  | .hbm, ⟨50, _⟩ => ⟨S2048x1, .i32⟩
  | .hbm, ⟨51, _⟩ => ⟨S2048x128, .i32⟩
  | .hbm, ⟨52, _⟩ => ⟨S2048x128, .i32⟩
  | .hbm, ⟨53, _⟩ => ⟨S2048x128, .i1⟩
  | .hbm, ⟨54, _⟩ => ⟨S2048x1, .f32⟩
  | .hbm, ⟨55, _⟩ => ⟨S2048x128, .f32⟩
  | .hbm, ⟨56, _⟩ => ⟨S2048x128, .f32⟩
  | .hbm, ⟨57, _⟩ => ⟨S2048x1, .i32⟩
  | .hbm, ⟨58, _⟩ => ⟨S2048x128, .i32⟩
  | .hbm, ⟨59, _⟩ => ⟨S2048x128, .i32⟩
  | .hbm, ⟨60, _⟩ => ⟨S2048x128, .i1⟩
  | .hbm, ⟨61, _⟩ => ⟨S2048x1, .f32⟩
  | .hbm, ⟨62, _⟩ => ⟨S2048x128, .f32⟩
  | .hbm, ⟨63, _⟩ => ⟨S2048x128, .f32⟩
  | .hbm, ⟨64, _⟩ => ⟨S2048x128x1024, .f32⟩
  | .local _ .vmem, ⟨0, _⟩ => ⟨S16x128x1024, .f32⟩
  | .local _ .vmem, ⟨1, _⟩ => ⟨S16x128x1024, .f32⟩
  | .local _ .vmem, ⟨2, _⟩ => ⟨S16x1024, .f32⟩
  | .local _ .vmem, ⟨3, _⟩ => ⟨S16x1024, .f32⟩
  | .local _ .vmem, ⟨4, _⟩ => ⟨S16x128, .f32⟩
  | .local _ .vmem, ⟨5, _⟩ => ⟨S16x128, .f32⟩
  | .local _ .vmem, ⟨6, _⟩ => ⟨S16x128x1024, .f32⟩
  | .local _ .vmem, ⟨7, _⟩ => ⟨S16x128x1024, .f32⟩
  | _, _ => ⟨S2048x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call1_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call2_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call3_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call4_v0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call5_v0 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call6_v0 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call7_v0 : Ref sig .tc := ⟨.hbm, 62, rfl⟩
abbrev main_v50 : Ref sig .tc := ⟨.hbm, 63, rfl⟩
abbrev main_v51 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v3 : BitVec 32 := Scalar.muli arg5 c256_i32
  v3
def k0_off1 (k0_t1 : Fin k0_t1_loop.trips) : Fin 3 → Nat :=
  let c0_2 : Index := 0#32
  let c0_3 : Index := 0#32
  let c0_i32 : BitVec 32 := 0#32
  let c1_i32 : BitVec 32 := 1#32
  let arg5 : BitVec 32 := Scf.iv c0_i32 c1_i32 k0_t1
  let c256_i32 : BitVec 32 := 256#32
  let v3 : BitVec 32 := Scalar.muli arg5 c256_i32
  let v4 : BitVec 32 := v3
  let v5 : Index := Scalar.indexCast v4
  ![0, 0, v5.toNat]
def k0_off2 (k0_t1 : Fin k0_t1_loop.trips) : Fin 2 → Nat :=
  let c0_4 : Index := 0#32
  let c0_i32 : BitVec 32 := 0#32
  let c1_i32 : BitVec 32 := 1#32
  let arg5 : BitVec 32 := Scf.iv c0_i32 c1_i32 k0_t1
  let c256_i32 : BitVec 32 := 256#32
  let v3 : BitVec 32 := Scalar.muli arg5 c256_i32
  let v4 : BitVec 32 := v3
  let v7 : Index := Scalar.indexCast v4
  ![0, v7.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S128_S1x128_1 : S128.BroadcastsInDim S1x128 (![1] : Fin 1 → Fin S1x128.rank)
  bcast_S_S2048x128 : S_.BroadcastsInDim S2048x128 (![] : Fin 0 → Fin S2048x128.rank)
  slices_S2048x8_S2048x1_0_0 : S2048x8.Slices ![0, 0] S2048x1
  bcast_S2048x1_S2048x128_0_1 : S2048x1.BroadcastsInDim S2048x128 (![0, 1] : Fin 2 → Fin S2048x128.rank)
  bcast_S1x128_S2048x128_0_1 : S1x128.BroadcastsInDim S2048x128 (![0, 1] : Fin 2 → Fin S2048x128.rank)
  slices_S2048x8_S2048x1_0_1 : S2048x8.Slices ![0, 1] S2048x1
  slices_S2048x8_S2048x1_0_2 : S2048x8.Slices ![0, 2] S2048x1
  slices_S2048x8_S2048x1_0_3 : S2048x8.Slices ![0, 3] S2048x1
  slices_S2048x8_S2048x1_0_4 : S2048x8.Slices ![0, 4] S2048x1
  slices_S2048x8_S2048x1_0_5 : S2048x8.Slices ![0, 5] S2048x1
  slices_S2048x8_S2048x1_0_6 : S2048x8.Slices ![0, 6] S2048x1
  slices_S2048x8_S2048x1_0_7 : S2048x8.Slices ![0, 7] S2048x1
  inb_S16x128_S16x128_0_0 : ∀ a, (![0, 0] : Fin 2 → Nat) a + S16x128.size a ≤ S16x128.size a
  h_S16x128 : 0 < S16x128.numel
  shapeCasts_S16x128_S16x128 : S16x128.ShapeCasts S16x128
  h_S16x128x256 : 0 < S16x128x256.numel
  h_S16x256 : 0 < S16x256.numel
  shapeCasts_S16x256_S16x1x256 : S16x256.ShapeCasts S16x1x256
  shapeCasts_S16x1x256_S16x1x256 : S16x1x256.ShapeCasts S16x1x256
  broadcasts_S16x1x256_S16x128x256 : S16x1x256.Broadcasts S16x128x256
  shapeCasts_S16x128_S16x128x1 : S16x128.ShapeCasts S16x128x1
  shapeCasts_S16x128x1_S16x128x1 : S16x128x1.ShapeCasts S16x128x1
  broadcasts_S16x128x1_S16x128x256 : S16x128x1.Broadcasts S16x128x256
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S16x128x256.size a ≤ S16x128x1024.size a
  k0_off2_inb : ∀ k0_t1 : Fin k0_t1_loop.trips, ∀ a, (k0_off2 k0_t1) a + S16x256.size a ≤ S16x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x1024.size a ≤ S2048x128x1024.size a
  hwx0_0 : ∀ i : grid0.Coords, EltTy.bits .f32 = 32 ∨ (Rect.block (s := S2048x128x1024) S16x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S2048x1024.size a
  hwx0_1 : ∀ i : grid0.Coords, EltTy.bits .f32 = 32 ∨ (Rect.block (s := S2048x1024) S16x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S2048x128.size a
  hwx0_2 : ∀ i : grid0.Coords, EltTy.bits .f32 = 32 ∨ (Rect.block (s := S2048x128) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128x1024.size a ≤ S2048x128x1024.size a
  hwx0_3 : ∀ i : grid0.Coords, EltTy.bits .f32 = 32 ∨ (Rect.block (s := S2048x128x1024) S16x128x1024.size (cc0_transform_3 i) (hinb0_3 i)).WholeWords (EltTy.packing .f32)

variable [Facts₀]

abbrev win0_0 : Pipeline.Window sig grid0 :=
  Pipeline.Window.ofSpec (Memref.whole main_arg0) S16x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S16x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x128x1024 : Shape := ⟨3, ![2048, 128, 1024]⟩
abbrev S2048x1024 : Shape := ⟨2, ![2048, 1024]⟩
abbrev S2048x8 : Shape := ⟨2, ![2048, 8]⟩
abbrev S2048x8x1 : Shape := ⟨3, ![2048, 8, 1]⟩
abbrev S_ : Shape := ⟨0, ![]⟩
abbrev S1 : Shape := ⟨1, ![1]⟩
abbrev S1x1x1 : Shape := ⟨3, ![1, 1, 1]⟩
abbrev S2048x8x1024 : Shape := ⟨3, ![2048, 8, 1024]⟩
abbrev S2048x1x1024 : Shape := ⟨3, ![2048, 1, 1024]⟩
abbrev S2048 : Shape := ⟨1, ![2048]⟩
abbrev S2048x1 : Shape := ⟨2, ![2048, 1]⟩
abbrev S2048x8x2 : Shape := ⟨3, ![2048, 8, 2]⟩

abbrev nBuf : Space → Nat
  | .hbm => 59
  | .vmem => 0
  | .smem => 0
  | _ => 0

abbrev bufTy : (tb : Table) → Fin (tcTables nBuf tb) → BufTy
  | .hbm, ⟨0, _⟩ => ⟨S2048x128x1024, .f32⟩
  | .hbm, ⟨1, _⟩ => ⟨S2048x1024, .f32⟩
  | .hbm, ⟨2, _⟩ => ⟨S2048x8, .i32⟩
  | .hbm, ⟨3, _⟩ => ⟨S2048x8, .f32⟩
  | .hbm, ⟨4, _⟩ => ⟨S2048x8x1, .i32⟩
  | .hbm, ⟨5, _⟩ => ⟨S_, .i32⟩
  | .hbm, ⟨6, _⟩ => ⟨S2048x8x1, .i32⟩
  | .hbm, ⟨7, _⟩ => ⟨S2048x8x1, .i1⟩
  | .hbm, ⟨8, _⟩ => ⟨S_, .i32⟩
  | .hbm, ⟨9, _⟩ => ⟨S2048x8x1, .i32⟩
  | .hbm, ⟨10, _⟩ => ⟨S2048x8x1, .i32⟩
  | .hbm, ⟨11, _⟩ => ⟨S2048x8x1, .i32⟩
  | .hbm, ⟨12, _⟩ => ⟨S1, .i32⟩
  | .hbm, ⟨13, _⟩ => ⟨S_, .i32⟩
  | .hbm, ⟨14, _⟩ => ⟨S2048x8x1, .i32⟩
  | .hbm, ⟨15, _⟩ => ⟨S2048x8x1, .i1⟩
  | .hbm, ⟨16, _⟩ => ⟨S1x1x1, .i32⟩
  | .hbm, ⟨17, _⟩ => ⟨S2048x8x1, .i32⟩
  | .hbm, ⟨18, _⟩ => ⟨S2048x8x1, .i1⟩
  | .hbm, ⟨19, _⟩ => ⟨S2048x8x1, .i1⟩
  | .hbm, ⟨20, _⟩ => ⟨S_, .i1⟩
  | .hbm, ⟨21, _⟩ => ⟨S2048x8, .i1⟩
  | .hbm, ⟨22, _⟩ => ⟨S2048x8x1024, .f32⟩
  | .hbm, ⟨23, _⟩ => ⟨S2048x8x1024, .i1⟩
  | .hbm, ⟨24, _⟩ => ⟨S_, .f32⟩
  | .hbm, ⟨25, _⟩ => ⟨S2048x8x1024, .f32⟩
  | .hbm, ⟨26, _⟩ => ⟨S2048x8x1024, .f32⟩
  | .hbm, ⟨27, _⟩ => ⟨S2048x8x1, .f32⟩
  | .hbm, ⟨28, _⟩ => ⟨S_, .f32⟩
  | .hbm, ⟨29, _⟩ => ⟨S2048x8x1, .f32⟩
  | .hbm, ⟨30, _⟩ => ⟨S2048x8x1, .f32⟩
  | .hbm, ⟨31, _⟩ => ⟨S2048x8x1024, .f32⟩
  | .hbm, ⟨32, _⟩ => ⟨S2048x8x1024, .f32⟩
  | .hbm, ⟨33, _⟩ => ⟨S2048x1x1024, .f32⟩
  | .hbm, ⟨34, _⟩ => ⟨S2048x8x1024, .f32⟩
  | .hbm, ⟨35, _⟩ => ⟨S2048x8x1024, .f32⟩
  | .hbm, ⟨36, _⟩ => ⟨S2048x8x1024, .f32⟩
  | .hbm, ⟨37, _⟩ => ⟨S2048x8x1024, .f32⟩
  | .hbm, ⟨38, _⟩ => ⟨S2048, .i32⟩
  | .hbm, ⟨39, _⟩ => ⟨S2048x1, .i32⟩
  | .hbm, ⟨40, _⟩ => ⟨S_, .i32⟩
  | .hbm, ⟨41, _⟩ => ⟨S2048x1, .i32⟩
  | .hbm, ⟨42, _⟩ => ⟨S2048x1, .i1⟩
  | .hbm, ⟨43, _⟩ => ⟨S_, .i32⟩
  | .hbm, ⟨44, _⟩ => ⟨S2048x1, .i32⟩
  | .hbm, ⟨45, _⟩ => ⟨S2048x1, .i32⟩
  | .hbm, ⟨46, _⟩ => ⟨S2048x1, .i32⟩
  | .hbm, ⟨47, _⟩ => ⟨S_, .i32⟩
  | .hbm, ⟨48, _⟩ => ⟨S2048x8, .i32⟩
  | .hbm, ⟨49, _⟩ => ⟨S2048x8, .i1⟩
  | .hbm, ⟨50, _⟩ => ⟨S_, .i32⟩
  | .hbm, ⟨51, _⟩ => ⟨S2048x8, .i32⟩
  | .hbm, ⟨52, _⟩ => ⟨S2048x8, .i32⟩
  | .hbm, ⟨53, _⟩ => ⟨S2048x8, .i32⟩
  | .hbm, ⟨54, _⟩ => ⟨S2048x8, .i32⟩
  | .hbm, ⟨55, _⟩ => ⟨S2048x8x1, .i32⟩
  | .hbm, ⟨56, _⟩ => ⟨S2048x8x1, .i32⟩
  | .hbm, ⟨57, _⟩ => ⟨S2048x8x2, .i32⟩
  | .hbm, ⟨58, _⟩ => ⟨S2048x128x1024, .f32⟩
  | _, _ => ⟨S2048x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_0 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_1 : Ref sig .tc := ⟨.hbm, 47, rfl⟩
abbrev main_v19 : Ref sig .tc := ⟨.hbm, 48, rfl⟩
abbrev main_v20 : Ref sig .tc := ⟨.hbm, 49, rfl⟩
abbrev main_c_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩

abbrev nD : Nat := 1
abbrev τ : Topo := Topo.v7x

variable {F : FTy → Type} [FloatOps F]

class Facts₀ : Prop where
  bcast_S2048x8_S2048x8x1_0_1 : S2048x8.BroadcastsInDim S2048x8x1 (![0, 1] : Fin 2 → Fin S2048x8x1.rank)
  bcast_S_S2048x8x1 : S_.BroadcastsInDim S2048x8x1 (![] : Fin 0 → Fin S2048x8x1.rank)
  bcast_S1_S1x1x1_2 : S1.BroadcastsInDim S1x1x1 (![2] : Fin 1 → Fin S1x1x1.rank)
  bcast_S1x1x1_S2048x8x1_0_1_2 : S1x1x1.BroadcastsInDim S2048x8x1 (![0, 1, 2] : Fin 3 → Fin S2048x8x1.rank)
  reducesTo_S2048x8x1_S2048x8_d2 : S2048x8x1.ReducesTo [2] S2048x8
  h_S_ : 0 < S_.numel
  bcast_S2048x8_S2048x8x1024_0_1 : S2048x8.BroadcastsInDim S2048x8x1024 (![0, 1] : Fin 2 → Fin S2048x8x1024.rank)
  bcast_S_S2048x8x1024 : S_.BroadcastsInDim S2048x8x1024 (![] : Fin 0 → Fin S2048x8x1024.rank)
  bcast_S2048x8x1_S2048x8x1024_0_1_2 : S2048x8x1.BroadcastsInDim S2048x8x1024 (![0, 1, 2] : Fin 3 → Fin S2048x8x1024.rank)
  bcast_S2048x1024_S2048x1x1024_0_2 : S2048x1024.BroadcastsInDim S2048x1x1024 (![0, 2] : Fin 2 → Fin S2048x1x1024.rank)
  bcast_S2048x1x1024_S2048x8x1024_0_1_2 : S2048x1x1024.BroadcastsInDim S2048x8x1024 (![0, 1, 2] : Fin 3 → Fin S2048x8x1024.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S_S2048x8 : S_.BroadcastsInDim S2048x8 (![] : Fin 0 → Fin S2048x8.rank)
  bcast_S2048x1_S2048x8_0_1 : S2048x1.BroadcastsInDim S2048x8 (![0, 1] : Fin 2 → Fin S2048x8.rank)
  concatenates_S2048x8x1_S2048x8x1_S2048x8x2_d2 : Shape.Concatenates [S2048x8x1, S2048x8x1] S2048x8x2 2
  gather_S2048x128x1024_S2048x8x1_S2048x8x1024_2_1_0_0_1_2_111024_wf : GatherDims.WF S2048x128x1024 S2048x8x1 S2048x8x1024 [2] [1] [0] [1] [0] 2 ![1, 1, 1024]
  scatter_S2048x128x1024_S2048x8x2_S2048x8x1024_2_01_01_2_wf : ScatterDims.WF S2048x128x1024 S2048x8x2 S2048x8x1024 [2] [0, 1] [0, 1] 2

variable [Facts₀]

def gather_S2048x128x1024_S2048x8x1_S2048x8x1024_2_1_0_0_1_2_111024 : GatherDims S2048x128x1024 S2048x8x1 S2048x8x1024 where
  offsetDims := [2]
  collapsedSliceDims := [1]
  operandBatchingDims := [0]
  startIndicesBatchingDims := [0]
  startIndexMap := [1]
  indexVectorDim := 2
  sliceSizes := ![1, 1, 1024]
  wf := gather_S2048x128x1024_S2048x8x1_S2048x8x1024_2_1_0_0_1_2_111024_wf
def scatter_S2048x128x1024_S2048x8x2_S2048x8x1024_2_01_01_2 : ScatterDims S2048x128x1024 S2048x8x2 S2048x8x1024 where
  updateWindowDims := [2]
  insertedWindowDims := [0, 1]
  scatterDimsToOperandDims := [0, 1]
  indexVectorDim := 2
  wf := scatter_S2048x128x1024_S2048x8x2_S2048x8x1024_2_01_01_2_wf

class Facts : Prop extends Facts₀ where

variable [Facts]
-- ==== Proof.KernelBody.lean ====
/-
  What one grid point's body leaves in the output block. The body walks the block's 1024 columns in four chunks of
  256; in each chunk it stores, at every (row p, bank q, column r) of the chunk,
  `state + prob · (substate − state)` — the state block's entry, the probability block's entry at (p, q) and the
  substate block's entry at (p, r). The four chunks tile the block, so the whole block holds that one function.
-/
import proofs.«408366_j9354438771004_3_alg».proof.Proof.Gen.KernelIdeal.Frame
import Idealize.ShloMosaic.Lib.ValueIdx
import Idealize.ShloMosaic.Lib.Pipeline.Value
import Idealize.ShloMosaic.Lib.WholeRead

noncomputable section

namespace Cert.KernelIdeal.BlendBody

open Cert.KernelIdeal Cert.KernelIdeal.Gen Idealize.ShloMosaic Idealize.ShloMosaic.ValueIdx Idealize.ShloMosaic.TcCoe Idealize.SL.Sem

variable {α : Type}

/-! ## The payload's layout operations, read at an index -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## The payload at an index -/

/-- The stored chunk at `(p, q, r)`: the state's entry plus the probability at `(p, q)` times the difference of the
    substate's entry at `(p, r)` and the state's entry. -/
theorem pay_apply (v0 : Vec Ideal S16x128 .f32) (v6 : Vec Ideal S16x128x256 .f32) (v8 : Vec Ideal S16x256 .f32)
    (p : Fin 16) (q : Fin 128) (r : Fin 256) :
    k0_pay1 (F := Ideal) v0 v6 v8 (ix3 p q r) = v6 (ix3 p q r) + v0 (ix2 p q) * (v8 (ix2 p r) - v6 (ix3 p q r)) := by
  unfold k0_pay1
  have hA : broadcastTo S16x128x256 (shapeCast S16x128x1 (shapeCast S16x128x1 (shapeCast S16x128 v0 shapeCasts_S16x128_S16x128)
        shapeCasts_S16x128_S16x128x1) shapeCasts_S16x128x1_S16x128x1) broadcasts_S16x128x1_S16x128x256 (ix3 p q r) = v0 (ix2 p q) := by
    refine (broadcastTo_ab1_abc_apply _ _ p q r).trans ?_
    rw [shapeCast_self, shapeCast_self]
    exact shapeCast_ab_ab1_apply v0 _ p q 0
  have hB : broadcastTo S16x128x256 (shapeCast S16x1x256 (shapeCast S16x1x256 v8 shapeCasts_S16x256_S16x1x256)
        shapeCasts_S16x1x256_S16x1x256) broadcasts_S16x1x256_S16x128x256 (ix3 p q r) = v8 (ix2 p r) := by
    refine (broadcastTo_a1c_abc_apply _ _ p q r).trans ?_
    rw [shapeCast_self]
    exact shapeCast_ac_a1c_apply v8 _ p 0 r
  show v6 (ix3 p q r) + broadcastTo S16x128x256 _ _ (ix3 p q r) * (broadcastTo S16x128x256 _ _ (ix3 p q r) - v6 (ix3 p q r)) = _
  rw [hA, hB]

/-! ## The blend, and the pieces the body stores -/

/-- The blend of the three input blocks as a function of the output block's index. -/
def blend (x0 : Vec Ideal S16x128x1024 .f32) (x1 : Vec Ideal S16x1024 .f32) (x2 : Vec Ideal S16x128 .f32) :
    S16x128x1024.Idx → Elt Ideal .f32 :=
  fun y => x0 y + x2 (ix2 (n0 := 16) (n1 := 128) (y 0) (y 1)) * (x1 (ix2 (n0 := 16) (n1 := 1024) (y 0) (y 2)) - x0 y)

/-- What one trip stores: one piece, the chunk of 256 columns at the trip's offset, holding the payload of the loads at
    that offset. -/
theorem trip_pieces (𝒱 : Variants) (c : Dev nD) (bd : Option 𝒱.V) (i : grid0.Coords) (arg1 : Memref sig .tc .vmem S16x128x1024 .f32) (harg1 : arg1.IsWhole) (arg2 : Memref sig .tc .vmem S16x1024 .f32) (harg2 : arg2.IsWhole) (arg3 : Memref sig .tc .vmem S16x128 .f32) (harg3 : arg3.IsWhole) (arg4 : Memref sig .tc .vmem S16x128x1024 .f32) (harg4 : arg4.IsWhole) (v0 : Vec Ideal S16x128 .f32) (X_arg1 : BufTy.Contents (Elt Ideal) arg1.view.ty) (X_arg2 : BufTy.Contents (Elt Ideal) arg2.view.ty) (k : Fin k0_t1_loop.trips) :
    tripL_k0_t1 (F := Ideal) 𝒱 c bd i arg1 harg1 arg2 harg2 arg3 harg3 arg4 harg4 v0 X_arg1 X_arg2 k
      = [⟨Rect.unit (s := S16x128x1024) (k0_off1 k) S16x128x256.size (k0_off1_inb k),
          k0_pay1 (F := Ideal) v0
            (View.readAt (Elt Ideal) arg1.view (Rect.unit (s := S16x128x1024) (k0_off1 k) S16x128x256.size (k0_off1_inb k)).toLoadRect X_arg1)
            (View.readAt (Elt Ideal) arg2.view (Rect.unit (s := S16x1024) (k0_off2 k) S16x256.size (k0_off2_inb k)).toLoadRect X_arg2)⟩] := by
  unfold tripL_k0_t1 trip_k0_t1
  rfl

/-- One trip's piece holds the blend at every index of its chunk: the chunk's columns are the block's columns
    `256·k + r`, the loads read the state there and the substate at the same columns, and the probability block is read
    whole. -/
theorem trip_blend (𝒱 : Variants) (c : Dev nD) (bd : Option 𝒱.V) (i : grid0.Coords) (arg1 : Memref sig .tc .vmem S16x128x1024 .f32) (harg1 : arg1.IsWhole) (arg2 : Memref sig .tc .vmem S16x1024 .f32) (harg2 : arg2.IsWhole) (arg3 : Memref sig .tc .vmem S16x128 .f32) (harg3 : arg3.IsWhole) (arg4 : Memref sig .tc .vmem S16x128x1024 .f32) (harg4 : arg4.IsWhole) (x0 : Vec Ideal S16x128x1024 .f32) (x1 : Vec Ideal S16x1024 .f32) (x2 : Vec Ideal S16x128 .f32) (k : Fin k0_t1_loop.trips) :
    ∀ pc ∈ tripL_k0_t1 (F := Ideal) 𝒱 c bd i arg1 harg1 arg2 harg2 arg3 harg3 arg4 harg4
        (View.readAt (Elt Ideal) arg3.view (Rect.unit (s := S16x128) ![0, 0] S16x128.size inb_S16x128_S16x128_0_0).toLoadRect (harg3.unread x2))
        (harg1.unread x0) (harg2.unread x1) k,
      ∀ x : pc.1.shape.Idx, pc.2 x = blend x0 x1 x2 (pc.1.emb x) := by
  intro pc hpc
  rw [trip_pieces] at hpc
  obtain rfl := List.mem_singleton.mp hpc
  intro x
  obtain ⟨p, q, r, rfl⟩ : ∃ (p : Fin 16) (q : Fin 128) (r : Fin 256), x = ix3 p q r := ⟨x 0, x 1, x 2, eq_ix3 x⟩
  have h10 : k0_off1 k 0 = 0 := by rw [k0_off1_eq]; rfl
  have h11 : k0_off1 k 1 = 0 := by rw [k0_off1_eq]; rfl
  have h12 : k0_off1 k 2 = 256 * k.val := by rw [k0_off1_eq]; rfl
  have h20 : k0_off2 k 0 = 0 := by rw [k0_off2_eq]; rfl
  have h21 : k0_off2 k 1 = 256 * k.val := by rw [k0_off2_eq]; rfl
  show k0_pay1 (F := Ideal) _ _ _ (ix3 p q r)
      = blend x0 x1 x2 ((Rect.unit (s := S16x128x1024) (k0_off1 k) S16x128x256.size (k0_off1_inb k)).emb (ix3 p q r))
  rw [pay_apply, Memref.IsWhole.readAt_unread harg1, Memref.IsWhole.readAt_unread harg2, Memref.IsWhole.readAt_unread harg3]
  have hA : (Rect.unit (s := S16x128) ![0, 0] S16x128.size inb_S16x128_S16x128_0_0).toLoadRect.idx (ix2 p q)
      = ix2 (n0 := 16) (n1 := 128)
          ((Rect.unit (s := S16x128x1024) (k0_off1 k) S16x128x256.size (k0_off1_inb k)).emb (ix3 p q r) 0)
          ((Rect.unit (s := S16x128x1024) (k0_off1 k) S16x128x256.size (k0_off1_inb k)).emb (ix3 p q r) 1) := by
    funext a
    match a with
    | ⟨0, _⟩ => exact Fin.ext (by show 0 + 1 * p.val = k0_off1 k 0 + 1 * p.val; omega)
    | ⟨1, _⟩ => exact Fin.ext (by show 0 + 1 * q.val = k0_off1 k 1 + 1 * q.val; omega)
  have hB : (Rect.unit (s := S16x1024) (k0_off2 k) S16x256.size (k0_off2_inb k)).toLoadRect.idx (ix2 p r)
      = ix2 (n0 := 16) (n1 := 1024)
          ((Rect.unit (s := S16x128x1024) (k0_off1 k) S16x128x256.size (k0_off1_inb k)).emb (ix3 p q r) 0)
          ((Rect.unit (s := S16x128x1024) (k0_off1 k) S16x128x256.size (k0_off1_inb k)).emb (ix3 p q r) 2) := by
    funext a
    match a with
    | ⟨0, _⟩ => exact Fin.ext (by show k0_off2 k 0 + 1 * p.val = k0_off1 k 0 + 1 * p.val; omega)
    | ⟨1, _⟩ => exact Fin.ext (by show k0_off2 k 1 + 1 * r.val = k0_off1 k 2 + 1 * r.val; omega)
  rw [hA, hB]
  rfl

/-- Every piece of the trips before `n` holds the blend on its chunk: trip by trip. -/
theorem pb_blend (𝒱 : Variants) (c : Dev nD) (bd : Option 𝒱.V) (i : grid0.Coords) (arg1 : Memref sig .tc .vmem S16x128x1024 .f32) (harg1 : arg1.IsWhole) (arg2 : Memref sig .tc .vmem S16x1024 .f32) (harg2 : arg2.IsWhole) (arg3 : Memref sig .tc .vmem S16x128 .f32) (harg3 : arg3.IsWhole) (arg4 : Memref sig .tc .vmem S16x128x1024 .f32) (harg4 : arg4.IsWhole) (x0 : Vec Ideal S16x128x1024 .f32) (x1 : Vec Ideal S16x1024 .f32) (x2 : Vec Ideal S16x128 .f32) :
    ∀ n : ℕ, ∀ pc ∈ pb_k0_t1 (F := Ideal) 𝒱 c bd i arg1 harg1 arg2 harg2 arg3 harg3 arg4 harg4
        (View.readAt (Elt Ideal) arg3.view (Rect.unit (s := S16x128) ![0, 0] S16x128.size inb_S16x128_S16x128_0_0).toLoadRect (harg3.unread x2))
        (harg1.unread x0) (harg2.unread x1) n,
      ∀ x : pc.1.shape.Idx, pc.2 x = blend x0 x1 x2 (pc.1.emb x)
  | 0 => fun pc hpc => absurd hpc List.not_mem_nil
  | n + 1 => fun pc hpc => by
    rw [pb_k0_t1.eq_2] at hpc
    unfold pb_k0_t1Step at hpc
    split at hpc
    · rcases List.mem_append.mp hpc with h | h
      · exact trip_blend 𝒱 c bd i arg1 harg1 arg2 harg2 arg3 harg3 arg4 harg4 x0 x1 x2 _ pc h
      · exact pb_blend 𝒱 c bd i arg1 harg1 arg2 harg2 arg3 harg3 arg4 harg4 x0 x1 x2 n pc h
    · exact pb_blend 𝒱 c bd i arg1 harg1 arg2 harg2 arg3 harg3 arg4 harg4 x0 x1 x2 n pc hpc

/-- The whole body's pieces are those of its four trips, so each holds the blend on its chunk. -/
theorem run_blend (c : Dev nD) (i : grid0.Coords) (arg1 : Memref sig .tc .vmem S16x128x1024 .f32) (harg1 : arg1.IsWhole) (arg2 : Memref sig .tc .vmem S16x1024 .f32) (harg2 : arg2.IsWhole) (arg3 : Memref sig .tc .vmem S16x128 .f32) (harg3 : arg3.IsWhole) (arg4 : Memref sig .tc .vmem S16x128x1024 .f32) (harg4 : arg4.IsWhole)
    (x0 : Vec Ideal S16x128x1024 .f32) (x1 : Vec Ideal S16x1024 .f32) (x2 : Vec Ideal S16x128 .f32) :
    ∀ pc ∈ (kernelRun0_A (F := Ideal) c i arg1 harg1 arg2 harg2 arg3 harg3 arg4 harg4 x0 x1 x2).1,
      ∀ x : pc.1.shape.Idx, pc.2 x = blend x0 x1 x2 (pc.1.emb x) := by
  have h : (kernelRun0_A (F := Ideal) c i arg1 harg1 arg2 harg2 arg3 harg3 arg4 harg4 x0 x1 x2).1
      = pb_k0_t1 (F := Ideal) Variants.none c none i arg1 harg1 arg2 harg2 arg3 harg3 arg4 harg4
          (View.readAt (Elt Ideal) arg3.view (Rect.unit (s := S16x128) ![0, 0] S16x128.size inb_S16x128_S16x128_0_0).toLoadRect (harg3.unread x2))
          (harg1.unread x0) (harg2.unread x1) k0_t1_loop.trips := by
    unfold kernelRun0_A
    rfl
  rw [h]
  exact pb_blend Variants.none c none i arg1 harg1 arg2 harg2 arg3 harg3 arg4 harg4 x0 x1 x2 _

/-- The output block after the body is the blend, at every index: the pieces cover the block and each holds the blend. -/
theorem out_eq_blend (c : Dev nD) (i : grid0.Coords) (arg1 : Memref sig .tc .vmem S16x128x1024 .f32) (harg1 : arg1.IsWhole) (arg2 : Memref sig .tc .vmem S16x1024 .f32) (harg2 : arg2.IsWhole) (arg3 : Memref sig .tc .vmem S16x128 .f32) (harg3 : arg3.IsWhole) (arg4 : Memref sig .tc .vmem S16x128x1024 .f32) (harg4 : arg4.IsWhole)
    (x0 : Vec Ideal S16x128x1024 .f32) (x1 : Vec Ideal S16x1024 .f32) (x2 : Vec Ideal S16x128 .f32) (y : S16x128x1024.Idx) :
    out0_A_3 (F := Ideal) c i arg1 harg1 arg2 harg2 arg3 harg3 arg4 harg4 x0 x1 x2 y = blend x0 x1 x2 y := by
  unfold out0_A_3
  rw [View.read_writes_apply_eq_canon _ _ y _ (cover0_A_3 c i arg1 harg1 arg2 harg2 arg3 harg3 arg4 harg4 x0 x1 x2 y)]
  exact View.canon_apply_of_pieces (blend x0 x1 x2) _ (run_blend c i arg1 harg1 arg2 harg2 arg3 harg3 arg4 harg4 x0 x1 x2) y (cover0_A_3 c i arg1 harg1 arg2 harg2 arg3 harg3 arg4 harg4 x0 x1 x2 y)

/-- The output block after the body, entry by entry: the blend of the three input blocks. -/
theorem out_apply (c : Dev nD) (i : grid0.Coords) (arg1 : Memref sig .tc .vmem S16x128x1024 .f32) (harg1 : arg1.IsWhole) (arg2 : Memref sig .tc .vmem S16x1024 .f32) (harg2 : arg2.IsWhole) (arg3 : Memref sig .tc .vmem S16x128 .f32) (harg3 : arg3.IsWhole) (arg4 : Memref sig .tc .vmem S16x128x1024 .f32) (harg4 : arg4.IsWhole)
    (x0 : Vec Ideal S16x128x1024 .f32) (x1 : Vec Ideal S16x1024 .f32) (x2 : Vec Ideal S16x128 .f32)
    (p : Fin 16) (q : Fin 128) (r : Fin 1024) :
    (out0_A_3 (F := Ideal) c i arg1 harg1 arg2 harg2 arg3 harg3 arg4 harg4 x0 x1 x2 (ix3 p q r) : EReal)
      = (x0 (ix3 p q r) : EReal) + (x2 (ix2 p q) : EReal) * ((x1 (ix2 p r) : EReal) - (x0 (ix3 p q r) : EReal)) := by
  exact out_eq_blend c i arg1 harg1 arg2 harg2 arg3 harg3 arg4 harg4 x0 x1 x2 (ix3 p q r)

end Cert.KernelIdeal.BlendBody

end
-- ==== Proof.Spec.lean ====
/-
  The function both programs compute, written once over the four argument arrays.

  For a batch row `b` and a bank `o`, the eight selection slots `k = 0 … 7` of the row are scanned in order; a slot
  that names bank `o` replaces the running probability by its own, so what is left at the end is the probability of
  the LAST slot naming `o`, and zero if no slot does (`winProb`). The result blends every bank's row toward the
  row's substate by that probability: `state + p · (substate − state)` (`blend`).
-/
import Idealize.ShloMosaic.PureOps.Ideal
import Idealize.ShloMosaic.Lib.ValueIdx
import Mathlib.Data.List.FinRange

noncomputable section

namespace Cert.Blend

open Idealize.ShloMosaic Idealize.ShloMosaic.ValueIdx

/-- The state: 2048 batch rows of 128 banks of 1024 numbers. -/
abbrev SState : Shape := ⟨3, ![2048, 128, 1024]⟩
/-- The substate: one row of 1024 numbers per batch row. -/
abbrev SSub : Shape := ⟨2, ![2048, 1024]⟩
/-- The selections: eight slots per batch row (a bank index, and a probability). -/
abbrev SSel : Shape := ⟨2, ![2048, 8]⟩

/-- One slot of the scan: slot `k` of row `b` names bank `o` — its probability replaces the running one. -/
def winStep (idx : IVec SSel 32) (pr : SSel.Idx → EReal) (b : Fin 2048) (o : Fin 128) (acc : EReal) (k : Fin 8) : EReal :=
  if idx (ix2 b k) = BitVec.ofNat 32 o.val then pr (ix2 b k) else acc

/-- The winning probability of bank `o` in row `b`: that of the last slot naming `o`, zero if none does. -/
def winProb (idx : IVec SSel 32) (pr : SSel.Idx → EReal) (b : Fin 2048) (o : Fin 128) : EReal :=
  (List.finRange 8).foldl (winStep idx pr b o) 0

/-- The blended state. -/
def blend (st : SState.Idx → EReal) (su : SSub.Idx → EReal) (idx : IVec SSel 32) (pr : SSel.Idx → EReal) : SState.Idx → EReal :=
  fun j => st j + winProb idx pr (j 0) (j 1) * (su (ix2 (j 0) (j 2)) - st j)

end Cert.Blend

end
-- ==== Proof.KernelHost.lean ====
/-
  What the host computes before the kernel is launched: the map of winning probabilities. Eight times over, the
  host compares one column of the selection indices with the bank numbers 0 … 127 and, where they agree, replaces
  the running map's entry by that column's probability; the map starts at zero. Read at (row b, bank o) this is the
  scan of the row's eight slots in order, the last slot naming `o` winning.
-/
import proofs.«408366_j9354438771004_3_alg».proof.Proof.Gen.KernelIdeal.Frame
import proofs.«408366_j9354438771004_3_alg».proof.Proof.Spec
import Idealize.ShloMosaic.Lib.ValueIdx
import Idealize.ShloMosaic.Lib.Pipeline.Value
import Idealize.ShloMosaic.Lib.StableHlo.Run
import Idealize.ShloMosaic.Lib.StableHlo.Predicate
import Idealize.ShloMosaic.PureOps.Ideal.Laws

noncomputable section

namespace Cert.KernelIdeal.BlendHost

open Cert.KernelIdeal Cert.KernelIdeal.Gen Idealize.ShloMosaic Idealize.ShloMosaic.ValueIdx Idealize.ShloMosaic.TcCoe Idealize.SL.Sem

/-- The bank numbers 0 … 127 laid along every row. -/
def banks : IVec S2048x128 32 :=
  broadcastInDim S2048x128 ![0, 1] bcast_S1x128_S2048x128_0_1
    (broadcastInDim S1x128 ![1] bcast_S128_S1x128_1 (iotaInDim S128 32 0))

/-- One step of the host's scan, as the operations compose it: the slot's column of indices compared with the bank
    numbers, the slot's column of probabilities taken where they agree, the running map elsewhere. -/
def stage (off : Fin S2048x8.rank → Nat) (h : S2048x8.Slices off S2048x1) (idx : IVec S2048x8 32) (pr : S2048x8.Idx → EReal)
    (prev : S2048x128.Idx → EReal) : S2048x128.Idx → EReal :=
  select (cmpi .eq (broadcastInDim S2048x128 ![0, 1] bcast_S2048x1_S2048x128_0_1 (extractStridedSlice S2048x1 off idx h)) banks)
    (broadcastInDim S2048x128 ![0, 1] bcast_S2048x1_S2048x128_0_1 (extractStridedSlice S2048x1 off pr h)) prev

/-- The map the scan starts from: zero everywhere. -/
def zeros : S2048x128.Idx → EReal :=
  broadcastInDim S2048x128 ![] bcast_S_S2048x128 (constant (F := Ideal) S_ .f32 0x00000000#32)

/-- The bank numbers read at (row b, bank o): the number o. -/
theorem banks_apply (b : Fin 2048) (o : Fin 128) : banks (ix2 b o) = BitVec.ofNat 32 o.val := by
  unfold banks
  refine (broadcastInDim_apply _ _ _ _ (ix2 (0 : Fin 1) o) ?_).trans ((broadcastInDim_apply _ _ _ _ (ix1 o) ?_).trans rfl)
  · intro a
    match a with
    | ⟨0, _⟩ => rfl
    | ⟨1, _⟩ => rfl
  · intro a
    match a with
    | ⟨0, _⟩ => rfl

/-- Column k of an eight-slot array, laid along every bank, read at (row b, bank o): the array at (b, k). -/
theorem column_apply {α : Type} (off : Fin S2048x8.rank → Nat) (h : S2048x8.Slices off S2048x1) (k : Fin 8)
    (h0 : off 0 = 0) (h1 : off 1 = k.val) (x : S2048x8.Idx → α) (b : Fin 2048) (o : Fin 128) :
    broadcastInDim S2048x128 ![0, 1] bcast_S2048x1_S2048x128_0_1 (extractStridedSlice S2048x1 off x h) (ix2 b o) = x (ix2 b k) := by
  refine (broadcastInDim_apply _ _ _ _ (ix2 b (0 : Fin 1)) ?_).trans (extractStridedSlice_apply off x h _ (ix2 b k) ?_)
  · intro a
    match a with
    | ⟨0, _⟩ => rfl
    | ⟨1, _⟩ => rfl
  · intro a
    match a with
    | ⟨0, _⟩ => show b.val = off 0 + b.val; omega
    | ⟨1, _⟩ => show k.val = off 1 + 0; omega

/-- One step of the host's scan read at (row b, bank o) is one step of the specification's scan. -/
theorem stage_apply (off : Fin S2048x8.rank → Nat) (h : S2048x8.Slices off S2048x1) (k : Fin 8)
    (h0 : off 0 = 0) (h1 : off 1 = k.val) (idx : IVec S2048x8 32) (pr : S2048x8.Idx → EReal) (prev : S2048x128.Idx → EReal)
    (b : Fin 2048) (o : Fin 128) :
    stage off h idx pr prev (ix2 b o) = Cert.Blend.winStep idx pr b o (prev (ix2 b o)) k := by
  have hsel : stage off h idx pr prev (ix2 b o)
      = Scalar.select (IntOp.cmpi .eq (idx (ix2 b k)) (BitVec.ofNat 32 o.val)) (pr (ix2 b k)) (prev (ix2 b o)) := by
    unfold stage
    rw [select_apply, column_apply off h k h0 h1 pr b o]
    show Scalar.select (IntOp.cmpi .eq (broadcastInDim S2048x128 ![0, 1] bcast_S2048x1_S2048x128_0_1
      (extractStridedSlice S2048x1 off idx h) (ix2 b o)) (banks (ix2 b o))) _ _ = _
    rw [column_apply off h k h0 h1 idx b o, banks_apply]
  rw [hsel]
  unfold Cert.Blend.winStep
  by_cases hc : idx (ix2 b k) = BitVec.ofNat 32 o.val
  · rw [if_pos hc, StableHlo.Predicate.cmpi_eq_iff.mpr hc, select_one]
  · rw [if_neg hc, eq_zero_of_ne_one (fun h1 => hc (StableHlo.Predicate.cmpi_eq_iff.mp h1)), select_zero]

/-- The map the scan starts from reads zero. -/
theorem zeros_apply (j : S2048x128.Idx) : zeros j = 0 := Ideal.ofBits_zero_f32

/-- The probability map the kernel is launched on, at (row b, bank o): the winning probability of the scan. -/
theorem V_winProb (m : (ℓ : Loc nD τ sig) → Buf (Elt Ideal) ℓ) (c : Dev nD) (b : Fin 2048) (o : Fin 128) :
    (V m c main_v50 : S2048x128.Idx → EReal) (ix2 b o)
      = Cert.Blend.winProb (m ((c : Thread nD τ).loc main_arg2)) (m ((c : Thread nD τ).loc main_arg3)) b o := by
  -- the host's operations composed: eight steps over the zero map, slot 7 outermost
  have e : (V m c main_v50 : S2048x128.Idx → EReal)
      = (fun (idx : IVec S2048x8 32) (pr : S2048x8.Idx → EReal) =>
          stage ![0, 7] slices_S2048x8_S2048x1_0_7 idx pr (stage ![0, 6] slices_S2048x8_S2048x1_0_6 idx pr
          (stage ![0, 5] slices_S2048x8_S2048x1_0_5 idx pr (stage ![0, 4] slices_S2048x8_S2048x1_0_4 idx pr
          (stage ![0, 3] slices_S2048x8_S2048x1_0_3 idx pr (stage ![0, 2] slices_S2048x8_S2048x1_0_2 idx pr
          (stage ![0, 1] slices_S2048x8_S2048x1_0_1 idx pr (stage ![0, 0] slices_S2048x8_S2048x1_0_0 idx pr zeros))))))))
          (m ((c : Thread nD τ).loc main_arg2)) (m ((c : Thread nD τ).loc main_arg3)) := by
    dsimp only [Gen.V]
    simp only [Gen.hostOps0, Gen.hostOps0_1, Gen.hostOps0_2, Gen.hostOps0_3, Gen.hostOps0_4, Gen.hostOps0_5, Gen.hostOps0_6,
      Gen.hostOps0_7, Gen.hostOps0_8, Gen.hostOps0_9, Gen.hostOps0_10, Gen.hostOps0_11, Gen.hostOps0_12, Gen.hostOps0_13,
      Gen.hostOps0_14, Gen.hostOps0_15, List.flatten_cons, List.flatten_nil, List.append_nil, List.cons_append, List.nil_append]
    after_results_simp
    rfl
  rw [e]
  -- the specification's scan written out over its eight slots, then each host step read at (b, o), innermost last
  have hl : List.finRange 8 = [0, 1, 2, 3, 4, 5, 6, 7] := by decide
  unfold Cert.Blend.winProb
  rw [hl]
  simp only [List.foldl_cons, List.foldl_nil]
  rw [stage_apply _ _ 7 rfl rfl, stage_apply _ _ 6 rfl rfl, stage_apply _ _ 5 rfl rfl, stage_apply _ _ 4 rfl rfl,
    stage_apply _ _ 3 rfl rfl, stage_apply _ _ 2 rfl rfl, stage_apply _ _ 1 rfl rfl, stage_apply _ _ 0 rfl rfl, zeros_apply]

end Cert.KernelIdeal.BlendHost

end
-- ==== Proof.KernelValue.lean ====
/-
  The kernel's result array. Grid point t handles the sixteen batch rows 16t … 16t+15: its blocks of the state, the
  substate and the probability map are those rows of the three arrays, and what it writes back is the blend of the
  three blocks, entry by entry. The 128 output blocks tile the result array, so the array ends holding the blend of
  the whole arrays; and the probability map the kernel is launched on is the scan of each row's eight slots.
-/
import proofs.«408366_j9354438771004_3_alg».proof.Proof.Gen.KernelIdeal.Value
import proofs.«408366_j9354438771004_3_alg».proof.Proof.KernelBody
import proofs.«408366_j9354438771004_3_alg».proof.Proof.KernelHost
import proofs.«408366_j9354438771004_3_alg».proof.Proof.Spec

noncomputable section

namespace Cert.KernelIdeal.BlendValue

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The state, the substate and the probability map as the kernel's launch finds them. -/
abbrev stV (c : Dev nD) : S2048x128x1024.Idx → EReal := V m c main_arg0
abbrev suV (c : Dev nD) : S2048x1024.Idx → EReal := V m c main_arg1
abbrev prV (c : Dev nD) : S2048x128.Idx → EReal := V m c main_v50

/-- The blend of those three arrays. -/
abbrev blendV (c : Dev nD) : S2048x128x1024.Idx → EReal := fun i =>
  stV m c i + prV m c (ix2 (i 0) (i 1)) * (suV m c (ix2 (i 0) (i 2)) - stV m c i)

/-- The printed index maps, decided over the grid: point t's blocks are block t along the batch axis, block 0 along the others. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Point t's state block sits in the state array where its output block sits in the result array. -/
theorem emb_state (t : Fin cfg0.N) (y : ((cfg0.win 3).xblock (grid0.coords t)).Idx) :
    ((cfg0.win 0).blk t).view.emb (ix3 (y 0) (y 1) (y 2)) = ((cfg0.win 3).blk t).view.emb y := by
  obtain ⟨a0, a1, a2, b0, b1, c0, c1, d0, d1, d2⟩ := idx_facts t
  funext a; apply Fin.ext
  match a with
  | ⟨0, _⟩ => show win0_0.index t (0 : Fin 3) * 16 + 1 * (y 0).val = win0_3.index t (0 : Fin 3) * 16 + 1 * (y 0).val; omega
  | ⟨1, _⟩ => show win0_0.index t (1 : Fin 3) * 128 + 1 * (y 1).val = win0_3.index t (1 : Fin 3) * 128 + 1 * (y 1).val; omega
  | ⟨2, _⟩ => show win0_0.index t (2 : Fin 3) * 1024 + 1 * (y 2).val = win0_3.index t (2 : Fin 3) * 1024 + 1 * (y 2).val; omega

/-- Point t's substate block holds the rows and columns of its output block. -/
theorem emb_sub (t : Fin cfg0.N) (y : ((cfg0.win 3).xblock (grid0.coords t)).Idx) :
    ((cfg0.win 1).blk t).view.emb (ix2 (y 0) (y 2))
      = ix2 ((((cfg0.win 3).blk t).view.emb y) 0) ((((cfg0.win 3).blk t).view.emb y) 2) := by
  obtain ⟨a0, a1, a2, b0, b1, c0, c1, d0, d1, d2⟩ := idx_facts t
  funext a; apply Fin.ext
  match a with
  | ⟨0, _⟩ => show win0_1.index t (0 : Fin 2) * 16 + 1 * (y 0).val = win0_3.index t (0 : Fin 3) * 16 + 1 * (y 0).val; omega
  | ⟨1, _⟩ => show win0_1.index t (1 : Fin 2) * 1024 + 1 * (y 2).val = win0_3.index t (2 : Fin 3) * 1024 + 1 * (y 2).val; omega

/-- Point t's probability block holds the rows and banks of its output block. -/
theorem emb_prob (t : Fin cfg0.N) (y : ((cfg0.win 3).xblock (grid0.coords t)).Idx) :
    ((cfg0.win 2).blk t).view.emb (ix2 (y 0) (y 1))
      = ix2 ((((cfg0.win 3).blk t).view.emb y) 0) ((((cfg0.win 3).blk t).view.emb y) 1) := by
  obtain ⟨a0, a1, a2, b0, b1, c0, c1, d0, d1, d2⟩ := idx_facts t
  funext a; apply Fin.ext
  match a with
  | ⟨0, _⟩ => show win0_2.index t (0 : Fin 2) * 16 + 1 * (y 0).val = win0_3.index t (0 : Fin 3) * 16 + 1 * (y 0).val; omega
  | ⟨1, _⟩ => show win0_2.index t (1 : Fin 2) * 128 + 1 * (y 1).val = win0_3.index t (1 : Fin 3) * 128 + 1 * (y 1).val; omega

/-- What point t writes back is block t of the blend. -/
theorem flushed_eq (c : Dev nD) (t : Fin cfg0.N) :
    (dats m 0 c).flushed 3 t = ((cfg0.win 3).blk t).view.read (Elt Ideal) (blendV m c) := by
  rw [Value.flushed3_A]
  funext y
  refine (congrArg (out0_A_3 (F := Ideal) c (grid0.coords t) (ms0_0 t) (hs0_0 t) (ms0_1 t) (hs0_1 t) (ms0_2 t) (hs0_2 t) (ms0_3 t) (hs0_3 t) (iblk m c 0 t) (iblk m c 1 t) (iblk m c 2 t)) (eq_ix3 y)).trans ?_
  refine (BlendBody.out_apply c (grid0.coords t) (ms0_0 t) (hs0_0 t) (ms0_1 t) (hs0_1 t) (ms0_2 t) (hs0_2 t) (ms0_3 t) (hs0_3 t) (iblk m c 0 t) (iblk m c 1 t) (iblk m c 2 t) (y 0) (y 1) (y 2)).trans ?_
  show stV m c (((cfg0.win 0).blk t).view.emb (ix3 (y 0) (y 1) (y 2)))
      + prV m c (((cfg0.win 2).blk t).view.emb (ix2 (y 0) (y 1)))
        * (suV m c (((cfg0.win 1).blk t).view.emb (ix2 (y 0) (y 2))) - stV m c (((cfg0.win 0).blk t).view.emb (ix3 (y 0) (y 1) (y 2))))
    = blendV m c (((cfg0.win 3).blk t).view.emb y)
  rw [emb_state t y, emb_sub t y, emb_prob t y]
  rfl

/-- An index of the result array is in point t's block exactly when each coordinate is in the block's range on its axis. -/
theorem mem_blk (t : Fin cfg0.N) (i : S2048x128x1024.Idx) :
    i ∈ ((cfg0.win 3).blk t).view.set ↔ ∀ a : Fin 3, win0_3.index t a * S16x128x1024.size a ≤ (i a).val
      ∧ (i a).val < win0_3.index t a * S16x128x1024.size a + S16x128x1024.size a := by
  show i ∈ ((View.whole main_v51).slice (win0_3.rect t)).set ↔ _
  rw [View.set_slice_whole, Rect.mem_set_unit]
  exact Iff.rfl

/-- Every index of the result array is in some point's block: batch row r is handled by point r / 16. -/
theorem cover (i : S2048x128x1024.Idx) :
    ∃ t : Fin cfg0.N, (cfg0.win 3).flush t = true ∧ i ∈ ((cfg0.win 3).blk t).view.set := by
  have hi0 : (i 0).val < 2048 := (i 0).isLt
  have hi1 : (i 1).val < 128 := (i 1).isLt
  have hi2 : (i 2).val < 1024 := (i 2).isLt
  have hN : cfg0.N = 128 := N_0
  have hlt : (i 0).val / 16 < cfg0.N := by rw [hN]; omega
  obtain ⟨a0, a1, a2, b0, b1, c0, c1, d0, d1, d2⟩ := idx_facts ⟨(i 0).val / 16, hlt⟩
  have d0' : win0_3.index ⟨(i 0).val / 16, hlt⟩ (0 : Fin 3) = (i 0).val / 16 := d0
  refine ⟨⟨(i 0).val / 16, hlt⟩, flush0_3 _, ?_⟩
  rw [mem_blk]
  intro a
  match a with
  | ⟨0, _⟩ =>
    show win0_3.index ⟨(i 0).val / 16, hlt⟩ (0 : Fin 3) * 16 ≤ (i 0).val
      ∧ (i 0).val < win0_3.index ⟨(i 0).val / 16, hlt⟩ (0 : Fin 3) * 16 + 16
    omega
  | ⟨1, _⟩ =>
    show win0_3.index ⟨(i 0).val / 16, hlt⟩ (1 : Fin 3) * 128 ≤ (i 1).val
      ∧ (i 1).val < win0_3.index ⟨(i 0).val / 16, hlt⟩ (1 : Fin 3) * 128 + 128
    omega
  | ⟨2, _⟩ =>
    show win0_3.index ⟨(i 0).val / 16, hlt⟩ (2 : Fin 3) * 1024 ≤ (i 2).val
      ∧ (i 2).val < win0_3.index ⟨(i 0).val / 16, hlt⟩ (2 : Fin 3) * 1024 + 1024
    omega

/-- The result array after the run is the blend of the arrays as the launch finds them. -/
theorem final (c : Dev nD) : (dats m 0 c).arrAt 3 cfg0.N = blendV m c :=
  (dats m 0 c).arrAt_eq_of_cover 3 (blendV m c) (fun t _ => flushed_eq m c t) cover

/-- That blend is the specification's, of the argument arrays: the state and the substate are found as launched,
    and the probability map is the scan of the selection arrays. -/
theorem blendV_eq (c : Dev nD) :
    blendV m c = Cert.Blend.blend (m ((c : Thread nD τ).loc main_arg0)) (m ((c : Thread nD τ).loc main_arg1))
      (m ((c : Thread nD τ).loc main_arg2)) (m ((c : Thread nD τ).loc main_arg3)) := by
  funext i
  have e0 : stV m c = m ((c : Thread nD τ).loc main_arg0) := V_main_arg0 m c
  have e1 : suV m c = m ((c : Thread nD τ).loc main_arg1) := V_main_arg1 m c
  have e2 : prV m c (ix2 (i 0) (i 1)) = Cert.Blend.winProb (m ((c : Thread nD τ).loc main_arg2)) (m ((c : Thread nD τ).loc main_arg3)) (i 0) (i 1) :=
    BlendHost.V_winProb m c (i 0) (i 1)
  show stV m c i + prV m c (ix2 (i 0) (i 1)) * (suV m c (ix2 (i 0) (i 2)) - stV m c i) = _
  rw [e0, e1, e2]
  rfl

/-- The kernel's run: the result array ends at the blend of the argument arrays, and those end unchanged. -/
theorem run : θ_run defs (onTc (τ := τ) (main (F := Ideal))) ⟨m, fun _ => 0, ρ⟩ fun r => ∀ c : Dev nD,
      r.2.mem ((c : Thread nD τ).loc main_v51)
        = Cert.Blend.blend (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (blendV_eq m c)), (h c).2⟩)
    (Value.run_blocks m ρ)

end Cert.KernelIdeal.BlendValue

end
-- ==== Proof.RefIndex.lean ====
/-
  The reference's gather and scatter read at an index, for selection indices inside the bank axis (0 … 127).
  Update (b, k, d) of the scatter lands on the state's entry (b, bank named by slot k of row b, d) — every update is
  inside the state, none is dropped —, and its value is the interpolation
  `(1 − prob) · state[b, that bank, d] + prob · substate[b, d]` of the gathered row.
-/
import proofs.«408366_j9354438771004_3_alg».proof.Proof.RefRead
import Idealize.ShloMosaic.Lib.ValueIdx
import Idealize.ShloMosaic.Lib.Pipeline.Value
import Idealize.ShloMosaic.Lib.StableHlo.Predicate
import Idealize.ShloMosaic.Lib.IdealHost

noncomputable section

namespace Cert.ReferenceIdeal.BlendRef

open Cert.ReferenceIdeal Cert.ReferenceIdeal.Gen Cert.ReferenceIdeal.ReadP Idealize.ShloMosaic Idealize.ShloMosaic.ValueIdx

/-- The bank a selection word names (a word below 128 names itself). -/
def bankOf (w : BitVec 32) : Fin 128 := ⟨w.toNat % 128, Nat.mod_lt _ (by decide)⟩

/-! ## Words -/

theorem slt_zero_of_small (w : BitVec 32) (hw : w.toNat < 2 ^ 31) : IntOp.cmpi .slt w 0#32 = 0#1 := by
  refine eq_zero_of_ne_one fun h => ?_
  have := (StableHlo.Predicate.slt_iff_toNat hw (by decide)).1 h
  exact Nat.not_lt_zero _ this

theorem norm_small (w c : BitVec 32) (hw : w.toNat < 2 ^ 31) :
    Scalar.select (IntOp.cmpi .slt w 0#32) (IntOp.addi w c) w = w := by
  rw [slt_zero_of_small w hw, select_zero]

theorem sge_zero_of_small (w : BitVec 32) (hw : w.toNat < 2 ^ 31) : IntOp.cmpi .sge w 0#32 = 1#1 :=
  (StableHlo.Predicate.sge_iff_toNat hw (by decide)).2 (Nat.zero_le _)

theorem sle_127_of_lt (w : BitVec 32) (hw : w.toNat < 128) : IntOp.cmpi .sle w 127#32 = 1#1 := by
  refine (StableHlo.Predicate.sle_iff_toNat (by omega) (by decide)).2 ?_
  have : (127#32 : BitVec 32).toNat = 127 := rfl
  omega

theorem bankOf_of_lt (w : BitVec 32) (hw : w.toNat < 128) : (bankOf w).val = w.toNat := Nat.mod_eq_of_lt hw

/-! ## Index arithmetic -/

theorem idx_v0_ix3 (b : Fin 2048) (k : Fin 8) (z : Fin 1) : idx_main_v0 (ix3 b k z) = ix2 b k := by
  funext a; match a with | ⟨0, _⟩ => rfl | ⟨1, _⟩ => rfl

/-- The normalised selection index of the gather is the selection word. -/
theorem sel_apply (x2 : IVec S2048x8 32) (hx2 : ∀ j, (x2 j).toNat < 128) (i : S2048x8x1.Idx) :
    val_main_call0_v4 (F := Ideal) x2 i = x2 (idx_main_v0 i) := by
  rw [val_main_call0_v4_apply, val_main_call0_v1_apply, val_main_call0_v3_apply, val_main_v0_apply,
    val_main_call0_v0_apply, val_main_call0_c_apply]
  exact norm_small _ _ (by have := hx2 (idx_main_v0 i); omega)

theorem mask_apply (x2 : IVec S2048x8 32) (hx2 : ∀ j, (x2 j).toNat < 128) (i : S2048x8x1.Idx) :
    val_main_call0_v10 (F := Ideal) x2 i = 1#1 := by
  rw [val_main_call0_v10_apply, val_main_call0_v6_apply, val_main_call0_v9_apply, sel_apply x2 hx2,
    val_main_call0_v5_apply, val_main_call0_c_2_apply, val_main_call0_v8_apply, val_main_call0_v7_apply,
    val_main_call0_c_1_apply]
  rw [sge_zero_of_small _ (by have := hx2 (idx_main_v0 i); omega), sle_127_of_lt _ (hx2 _)]
  rfl

/-! ## The in-range mask of take_along_axis -/

theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

theorem inrange_apply (x2 : IVec S2048x8 32) (hx2 : ∀ j, (x2 j).toNat < 128) (j : S2048x8.Idx) :
    val_main_call0_v11 (F := Ideal) x2 j = 1#1 := by
  unfold val_main_call0_v11
  rw [Host.reduce_eq_foldl]
  exact foldl_andi_one _ _ (fun i _ => mask_apply x2 hx2 i)

/-! ## The gather -/

abbrev takeDimsRef := gather_S2048x128x1024_S2048x8x1_S2048x8x1024_2_1_0_0_1_2_111024

theorem gather_idx0 (idx : IVec S2048x8x1 32) (b : Fin 2048) (k : Fin 8) (d : Fin 1024) :
    (takeDimsRef.operandIdx (ix3 b k d) idx ⟨0, by decide⟩).val = b.val := by
  show takeDimsRef.start (ix3 b k d) idx ⟨0, by decide⟩ + takeDimsRef.batchCoord (ix3 b k d) ⟨0, by decide⟩ + takeDimsRef.offCoord (ix3 b k d) ⟨0, by decide⟩ = b.val
  have hb : (⟨0, by decide⟩ : Fin 3) ∈ takeDimsRef.operandBatchingDims := List.mem_singleton.2 rfl
  rw [GatherDims.start_batching _ _ _ _ hb, GatherDims.offCoord_eq_zero _ _ _ (fun h => ((GatherDims.mem_sKept _ _).1 h).2 hb)]
  unfold GatherDims.batchCoord
  rw [dif_pos hb, Nat.zero_add, Nat.add_zero]
  rfl

theorem gather_idx2 (idx : IVec S2048x8x1 32) (b : Fin 2048) (k : Fin 8) (d : Fin 1024) :
    (takeDimsRef.operandIdx (ix3 b k d) idx ⟨2, by decide⟩).val = d.val := by
  show takeDimsRef.start (ix3 b k d) idx ⟨2, by decide⟩ + takeDimsRef.batchCoord (ix3 b k d) ⟨2, by decide⟩ + takeDimsRef.offCoord (ix3 b k d) ⟨2, by decide⟩ = d.val
  have hb : (⟨2, by decide⟩ : Fin 3) ∉ takeDimsRef.operandBatchingDims := by decide
  have hm : (⟨2, by decide⟩ : Fin 3) ∉ takeDimsRef.startIndexMap := by decide
  have hk : (⟨2, by decide⟩ : Fin 3) ∈ takeDimsRef.sKept := by decide
  rw [GatherDims.batchCoord_eq_zero _ _ _ hb]
  unfold GatherDims.start GatherDims.offCoord
  rw [dif_neg hm, dif_pos hk, Nat.zero_add]
  rfl

theorem gather_idx1 (idx : IVec S2048x8x1 32) (b : Fin 2048) (k : Fin 8) (d : Fin 1024) :
    (takeDimsRef.operandIdx (ix3 b k d) idx ⟨1, by decide⟩).val = min (idx (ix3 b k 0)).toInt.toNat 127 := by
  show takeDimsRef.start (ix3 b k d) idx ⟨1, by decide⟩ + takeDimsRef.batchCoord (ix3 b k d) ⟨1, by decide⟩ + takeDimsRef.offCoord (ix3 b k d) ⟨1, by decide⟩ = _
  have hb : (⟨1, by decide⟩ : Fin 3) ∉ takeDimsRef.operandBatchingDims := by decide
  have hm : (⟨1, by decide⟩ : Fin 3) ∈ takeDimsRef.startIndexMap := by decide
  have hk : (⟨1, by decide⟩ : Fin 3) ∉ takeDimsRef.sKept := by decide
  rw [GatherDims.batchCoord_eq_zero _ _ _ hb, GatherDims.offCoord_eq_zero _ _ _ hk]
  unfold GatherDims.start
  rw [dif_pos hm]
  have hsi : takeDimsRef.siIdx (ix3 b k d) ⟨List.idxOf (⟨1, by decide⟩ : Fin 3) takeDimsRef.startIndexMap, List.idxOf_lt_length_iff.2 hm⟩ = ix3 b k 0 := by
    funext a; refine Fin.ext ?_
    match a with
    | ⟨0, _⟩ => rfl
    | ⟨1, _⟩ => rfl
    | ⟨2, _⟩ => rfl
  rw [hsi]
  rfl

theorem gather_apply (x0 : S2048x128x1024.Idx → EReal) (x2 : IVec S2048x8 32) (hx2 : ∀ j, (x2 j).toNat < 128)
    (b : Fin 2048) (k : Fin 8) (d : Fin 1024) :
    val_main_call0_v12 (F := Ideal) x0 x2 (ix3 b k d) = x0 (ix3 b (bankOf (x2 (ix2 b k))) d) := by
  unfold val_main_call0_v12 Host.gather
  congr 1
  funext a
  refine Fin.ext ?_
  match a with
  | ⟨0, _⟩ => exact gather_idx0 _ b k d
  | ⟨1, _⟩ =>
    refine (gather_idx1 _ b k d).trans ?_
    rw [sel_apply x2 hx2, idx_v0_ix3]
    show min _ 127 = (bankOf _).val
    rw [bankOf_of_lt _ (hx2 _)]
    have h1 := hx2 (ix2 b k)
    have h2 := StableHlo.Predicate.toInt_eq_toNat_of_lt (a := x2 (ix2 b k)) (by omega)
    omega
  | ⟨2, _⟩ => exact gather_idx2 _ b k d

/-- take_along_axis at (b, k, d): the state's row of the bank slot k names. -/
theorem taken_apply (x0 : S2048x128x1024.Idx → EReal) (x2 : IVec S2048x8 32) (hx2 : ∀ j, (x2 j).toNat < 128)
    (b : Fin 2048) (k : Fin 8) (d : Fin 1024) :
    val_main_v1 (F := Ideal) x0 x2 (ix3 b k d) = x0 (ix3 b (bankOf (x2 (ix2 b k))) d) := by
  rw [val_main_v1_apply, val_main_call0_v13_apply, inrange_apply x2 hx2, select_one, gather_apply x0 x2 hx2]

/-! ## The scatter indices -/

theorem ofNat_small (n : Nat) (hn : n < 2048) : (BitVec.ofNat 32 n).toNat < 2 ^ 31 := by
  rw [BitVec.toNat_ofNat]; omega

/-- Component 0 of the scatter index vector: the batch number. -/
theorem batch_apply (b : Fin 2048) (k : Fin 8) (z : Fin 1) :
    val_main_v25 (F := Ideal) (ix3 b k z) = BitVec.ofNat 32 b.val := by
  rw [val_main_v25_apply, val_main_v24_apply, val_main_v18_apply, val_main_v15_apply, val_main_v17_apply,
    val_main_v13_apply, val_main_v12_apply, val_main_v14_apply, val_main_c_apply]
  exact norm_small (BitVec.ofNat 32 b.val) _ (ofNat_small _ b.isLt)

/-- Component 1 of the scatter index vector: the selection word. -/
theorem slot_apply (x2 : IVec S2048x8 32) (hx2 : ∀ j, (x2 j).toNat < 128) (b : Fin 2048) (k : Fin 8) (z : Fin 1) :
    val_main_v26 (F := Ideal) x2 (ix3 b k z) = x2 (ix2 b k) := by
  rw [val_main_v26_apply, val_main_v23_apply, val_main_v20_apply, val_main_v22_apply, val_main_v19_apply, val_main_c_1_apply]
  have e : idx_main_v26 (ix3 b k z) = ix2 b k := by
    funext a; match a with | ⟨0, _⟩ => rfl | ⟨1, _⟩ => rfl
  rw [e]
  exact norm_small _ _ (by have := hx2 (ix2 b k); omega)

theorem indices_apply0 (x2 : IVec S2048x8 32) (b : Fin 2048) (k : Fin 8) :
    val_main_v27 (F := Ideal) x2 (ix3 b k 0) = BitVec.ofNat 32 b.val := by
  unfold val_main_v27
  refine (concatenate_pair_apply_left (t := S2048x8x2) (s₁ := S2048x8x1) (s₂ := S2048x8x1) 2 _ _
    concatenates_S2048x8x1_S2048x8x1_S2048x8x2_d2 (ix3 b k (0 : Fin 2)) rfl (ix3 b k (0 : Fin 1)) (fun a => ?_)).trans (batch_apply b k 0)
  match a with | ⟨0, _⟩ => rfl | ⟨1, _⟩ => rfl | ⟨2, _⟩ => rfl

theorem indices_apply1 (x2 : IVec S2048x8 32) (hx2 : ∀ j, (x2 j).toNat < 128) (b : Fin 2048) (k : Fin 8) :
    val_main_v27 (F := Ideal) x2 (ix3 b k 1) = x2 (ix2 b k) := by
  unfold val_main_v27
  refine (concatenate_pair_apply_right (t := S2048x8x2) (s₁ := S2048x8x1) (s₂ := S2048x8x1) 2 _ _
    concatenates_S2048x8x1_S2048x8x1_S2048x8x2_d2 (ix3 b k (1 : Fin 2)) rfl rfl (ix3 b k (0 : Fin 1)) (fun a ha => ?_) rfl).trans (slot_apply x2 hx2 b k 0)
  match a with | ⟨0, _⟩ => rfl | ⟨1, _⟩ => rfl | ⟨2, _⟩ => exact absurd rfl ha

/-! ## Where an update lands -/

abbrev putDimsRef := scatter_S2048x128x1024_S2048x8x2_S2048x8x1024_2_01_01_2

theorem scatter_start0 (idx : IVec S2048x8x2 32) (b : Fin 2048) (k : Fin 8) (d : Fin 1024) :
    putDimsRef.start (ix3 b k d) idx ⟨0, by decide⟩ = (idx (ix3 b k 0)).toInt := by
  have hm : (⟨0, by decide⟩ : Fin 3) ∈ putDimsRef.scatterDimsToOperandDims := by decide
  unfold ScatterDims.start
  rw [dif_pos hm]
  have hsi : putDimsRef.siIdx (ix3 b k d) ⟨List.idxOf (⟨0, by decide⟩ : Fin 3) putDimsRef.scatterDimsToOperandDims, List.idxOf_lt_length_iff.2 hm⟩
      = ix3 b k 0 := by
    funext a; refine Fin.ext ?_
    match a with | ⟨0, _⟩ => rfl | ⟨1, _⟩ => rfl | ⟨2, _⟩ => rfl
  rw [hsi]

theorem scatter_start1 (idx : IVec S2048x8x2 32) (b : Fin 2048) (k : Fin 8) (d : Fin 1024) :
    putDimsRef.start (ix3 b k d) idx ⟨1, by decide⟩ = (idx (ix3 b k 1)).toInt := by
  have hm : (⟨1, by decide⟩ : Fin 3) ∈ putDimsRef.scatterDimsToOperandDims := by decide
  unfold ScatterDims.start
  rw [dif_pos hm]
  have hsi : putDimsRef.siIdx (ix3 b k d) ⟨List.idxOf (⟨1, by decide⟩ : Fin 3) putDimsRef.scatterDimsToOperandDims, List.idxOf_lt_length_iff.2 hm⟩
      = ix3 b k 1 := by
    funext a; refine Fin.ext ?_
    match a with | ⟨0, _⟩ => rfl | ⟨1, _⟩ => rfl | ⟨2, _⟩ => rfl
  rw [hsi]

theorem scatter_start2 (idx : IVec S2048x8x2 32) (b : Fin 2048) (k : Fin 8) (d : Fin 1024) :
    putDimsRef.start (ix3 b k d) idx ⟨2, by decide⟩ = 0 := by
  have hm : (⟨2, by decide⟩ : Fin 3) ∉ putDimsRef.scatterDimsToOperandDims := by decide
  unfold ScatterDims.start
  rw [dif_neg hm]

theorem scatter_window0 (b : Fin 2048) (k : Fin 8) (d : Fin 1024) : putDimsRef.window (ix3 b k d) ⟨0, by decide⟩ = 0 := by
  have hk : (⟨0, by decide⟩ : Fin 3) ∉ putDimsRef.sKept := by decide
  unfold ScatterDims.window
  rw [dif_neg hk]

theorem scatter_window1 (b : Fin 2048) (k : Fin 8) (d : Fin 1024) : putDimsRef.window (ix3 b k d) ⟨1, by decide⟩ = 0 := by
  have hk : (⟨1, by decide⟩ : Fin 3) ∉ putDimsRef.sKept := by decide
  unfold ScatterDims.window
  rw [dif_neg hk]

theorem scatter_window2 (b : Fin 2048) (k : Fin 8) (d : Fin 1024) : putDimsRef.window (ix3 b k d) ⟨2, by decide⟩ = d.val := by
  have hk : (⟨2, by decide⟩ : Fin 3) ∈ putDimsRef.sKept := by decide
  unfold ScatterDims.window
  rw [dif_pos hk]
  rfl

/-- Start plus window coordinate of update (b, k, d), axis by axis: (b, the bank slot k names, d). -/
theorem scatter_coord (x2 : IVec S2048x8 32) (hx2 : ∀ j, (x2 j).toNat < 128) (b : Fin 2048) (k : Fin 8) (d : Fin 1024)
    (a : Fin 3) :
    putDimsRef.start (ix3 b k d) (val_main_v27 (F := Ideal) x2) a + (putDimsRef.window (ix3 b k d) a : Int)
      = ((ix3 b (bankOf (x2 (ix2 b k))) d a).val : Int) := by
  match a with
  | ⟨0, _⟩ =>
    rw [scatter_start0, scatter_window0, indices_apply0, StableHlo.Predicate.toInt_ofNat_small _ (by have := b.isLt; omega)]
    simp
  | ⟨1, _⟩ =>
    rw [scatter_start1, scatter_window1, indices_apply1 x2 hx2,
      StableHlo.Predicate.toInt_eq_toNat_of_lt (by have := hx2 (ix2 b k); omega)]
    show ((x2 (ix2 b k)).toNat : Int) + ((0 : Nat) : Int) = ((bankOf (x2 (ix2 b k))).val : Int)
    rw [bankOf_of_lt _ (hx2 _)]
    simp
  | ⟨2, _⟩ =>
    rw [scatter_start2, scatter_window2]
    simp

/-- Update (b, k, d) lands on entry (b, the bank slot k names, d) of the state. -/
theorem landing (x2 : IVec S2048x8 32) (hx2 : ∀ j, (x2 j).toNat < 128) (b : Fin 2048) (k : Fin 8) (d : Fin 1024) :
    scatter_S2048x128x1024_S2048x8x2_S2048x8x1024_2_01_01_2.resultIdx? (ix3 b k d) (val_main_v27 (F := Ideal) x2)
      = some (ix3 b (bankOf (x2 (ix2 b k))) d) := by
  have key := scatter_coord x2 hx2 b k d
  unfold ScatterDims.resultIdx?
  rw [dif_pos (fun a => by
    rw [key a]
    exact ⟨Int.natCast_nonneg _, Int.ofNat_lt.2 (ix3 b (bankOf (x2 (ix2 b k))) d a).isLt⟩)]
  congr 1
  funext a
  refine Fin.ext ?_
  show (putDimsRef.start (ix3 b k d) (val_main_v27 (F := Ideal) x2) a + (putDimsRef.window (ix3 b k d) a : Int)).toNat = _
  rw [key a, Int.toNat_natCast]

/-- The update's value: the gathered row interpolated toward the substate by the slot's probability. -/
theorem update_apply (x0 : S2048x128x1024.Idx → EReal) (x1 : S2048x1024.Idx → EReal) (x2 : IVec S2048x8 32) (x3 : S2048x8.Idx → EReal)
    (hx2 : ∀ j, (x2 j).toNat < 128) (b : Fin 2048) (k : Fin 8) (d : Fin 1024) :
    (val_main_v11 (F := Ideal) x0 x1 x2 x3 (ix3 b k d) : EReal)
      = (1 - x3 (ix2 b k)) * x0 (ix3 b (bankOf (x2 (ix2 b k))) d) + x3 (ix2 b k) * x1 (ix2 b d) := by
  rw [val_main_v11_apply, val_main_v6_apply, val_main_v10_apply, taken_apply x0 x2 hx2,
    val_main_v5_apply, val_main_v4_apply, val_main_v3_apply, val_main_cst_apply, val_main_v2_apply,
    val_main_v8_apply, val_main_v2_apply, val_main_v9_apply, val_main_v7_apply]
  have e1 : idx_main_v2 (idx_main_v5 (ix3 b k d)) = ix2 b k := by
    funext a; match a with | ⟨0, _⟩ => rfl | ⟨1, _⟩ => rfl
  have e3 : idx_main_v7 (idx_main_v9 (ix3 b k d)) = ix2 b d := by
    funext a; match a with | ⟨0, _⟩ => rfl | ⟨1, _⟩ => rfl
  rw [e1, e3]
  show (Ideal.ofBits .f32 0x3F800000#32 - x3 (ix2 b k)) * x0 _ + x3 (ix2 b k) * x1 (ix2 b d) = _
  rw [Ideal.ofBits_one_f32]

end Cert.ReferenceIdeal.BlendRef

end
-- ==== Proof.LibScatterRead.lean ====
/-
  A scatter read at one element. The host's scatter is a left fold over the update indices in row-major order; each step
  replaces the element at the update's result index by the body applied to that element and the update's. Read at one
  element of the operand: if no update index lands there, the element is unchanged; if exactly one does, it is the body
  applied to the operand's element and that update's.
-/
import Idealize.ShloMosaic.PureOps.ShapeOps
import Mathlib.Data.List.Nodup
import Mathlib.Data.List.FinRange

namespace Idealize.ShloMosaic

section Fold

variable {ι σ α : Type} [DecidableEq σ]

/-- One step of a scatter's fold: update `n`, landing at `g n` (or nowhere), applied to the array `r`. -/
def scatterStep (g : ι → Option σ) (f : α → α → α) (v : ι → α) (r : σ → α) (n : ι) : σ → α :=
  match g n with
  | some i => fun i' => if i' = i then f (r i) (v n) else r i'
  | none => r

/-- A step whose update does not land on `i'` leaves the element at `i'` as it was. -/
theorem scatterStep_of_ne (g : ι → Option σ) (f : α → α → α) (v : ι → α) (r : σ → α) (n : ι) (i' : σ)
    (h : g n ≠ some i') : scatterStep g f v r n i' = r i' := by
  unfold scatterStep
  cases hg : g n with
  | none => rfl
  | some i =>
    have hne : ¬ i' = i := fun e => h (by rw [hg, e])
    simp only [if_neg hne]

/-- A step whose update lands on `i'` puts there the body applied to the element and the update. -/
theorem scatterStep_of_eq (g : ι → Option σ) (f : α → α → α) (v : ι → α) (r : σ → α) (n : ι) (i' : σ)
    (h : g n = some i') : scatterStep g f v r n i' = f (r i') (v n) := by
  unfold scatterStep
  simp only [h, if_true]

/-- Folding updates none of which lands on `i'` leaves the element at `i'` as it was. -/
theorem foldl_scatterStep_of_miss (g : ι → Option σ) (f : α → α → α) (v : ι → α) (i' : σ) :
    ∀ (L : List ι) (x : σ → α), (∀ n ∈ L, g n ≠ some i') → L.foldl (scatterStep g f v) x i' = x i'
  | [], _, _ => rfl
  | n :: L, x, h => by
    rw [List.foldl_cons, foldl_scatterStep_of_miss g f v i' L _ (fun m hm => h m (List.mem_cons_of_mem _ hm)),
      scatterStep_of_ne g f v x n i' (h n List.mem_cons_self)]

/-- Folding a duplicate-free list of updates exactly one of which, `n₀`, lands on `i'` puts there the body applied
    to the first array's element and that update. -/
theorem foldl_scatterStep_of_unique (g : ι → Option σ) (f : α → α → α) (v : ι → α) (i' : σ) (n₀ : ι)
    (h₀ : g n₀ = some i') :
    ∀ (L : List ι) (x : σ → α), L.Nodup → n₀ ∈ L → (∀ n ∈ L, g n = some i' → n = n₀) →
      L.foldl (scatterStep g f v) x i' = f (x i') (v n₀)
  | [], _, _, hm, _ => absurd hm List.not_mem_nil
  | n :: L, x, hnd, hm, hu => by
    rw [List.foldl_cons]
    have hnd' := List.nodup_cons.1 hnd
    by_cases hn : n = n₀
    · subst hn
      rw [foldl_scatterStep_of_miss g f v i' L _ (fun m hmL e => by
          have := hu m (List.mem_cons_of_mem _ hmL) e
          exact hnd'.1 (this ▸ hmL)),
        scatterStep_of_eq g f v x n i' h₀]
    · have hmL : n₀ ∈ L := by
        rcases List.mem_cons.1 hm with e | e
        · exact absurd e.symm hn
        · exact e
      rw [foldl_scatterStep_of_unique g f v i' n₀ h₀ L _ hnd'.2 hmL (fun m hmm => hu m (List.mem_cons_of_mem _ hmm)),
        scatterStep_of_ne g f v x n i' (fun e => hn (hu n List.mem_cons_self e))]

end Fold

section Scatter

variable {s si u : Shape} {α : Type} {w : Nat}

/-- The host's scatter is the fold of `scatterStep` over the update positions in row-major order. -/
theorem Host.scatter_eq_foldl (d : ScatterDims s si u) (f : α → α → α) (x : s.Idx → α) (idx : IVec si w) (upd : u.Idx → α) :
    Host.scatter d f x idx upd
      = (List.finRange u.numel).foldl
          (scatterStep (fun n => d.resultIdx? (u.rowMajor.symm n) idx) f (fun n => upd (u.rowMajor.symm n))) x := by
  unfold Host.scatter
  refine congrArg (fun st => List.foldl st x (List.finRange u.numel)) ?_
  funext r n
  unfold scatterStep
  beta_reduce
  cases d.resultIdx? (u.rowMajor.symm n) idx <;> rfl

/-- An element of the operand that no update index lands on is unchanged by the scatter. -/
theorem Host.scatter_apply_of_miss (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  rw [Host.scatter_eq_foldl]
  exact foldl_scatterStep_of_miss _ f _ i' _ x (fun n _ => h _)

/-- An element of the operand that exactly one update index `j₀` lands on becomes the body applied to the operand's
    element and that update's. -/
theorem Host.scatter_apply_of_unique (d : ScatterDims s si u) (f : α → α → α) (x : s.Idx → α) (idx : IVec si w)
    (upd : u.Idx → α) (i' : s.Idx) (j₀ : u.Idx) (h₀ : d.resultIdx? j₀ idx = some i')
    (hu : ∀ j : u.Idx, d.resultIdx? j idx = some i' → j = j₀) :
    Host.scatter d f x idx upd i' = f (x i') (upd j₀) := by
  rw [Host.scatter_eq_foldl]
  have := foldl_scatterStep_of_unique (fun n => d.resultIdx? (u.rowMajor.symm n) idx) f
    (fun n => upd (u.rowMajor.symm n)) i' (u.rowMajor j₀) (by simp only [Equiv.symm_apply_apply]; exact h₀)
    (List.finRange u.numel) x (List.nodup_finRange _) (List.mem_finRange _)
    (fun n _ e => by
      have := hu _ e
      rw [← this, Equiv.apply_symm_apply])
  rw [this]
  simp only [Equiv.symm_apply_apply]

end Scatter

end Idealize.ShloMosaic
-- ==== Proof.LibScatterLast.lean ====
/-
  A scatter whose body keeps the update (a "set"), read at one element on which SEVERAL updates may land: what is left
  there is the update that lands last in the fold's order — the host's scatter folds over the update positions in
  row-major order, so the landing update with the largest row-major position. Beside it the same fact for a plain scan
  `acc ↦ if p n then f n else acc`: the last `n` satisfying `p` decides, and if none does the start value stays.
  Both split the list of positions at the deciding one; for the list of all positions below `N` in increasing order,
  everything after a position is larger than it.
-/
import proofs.«408366_j9354438771004_3_alg».proof.Proof.LibScatterRead
import Mathlib.Data.List.FinRange

namespace Idealize.ShloMosaic

section Fold

variable {ι σ α β : Type} [DecidableEq σ]

/-- Folding "set" updates: if `n₀` lands on `i'` and no later update does, `i'` ends with `n₀`'s value. -/
theorem foldl_scatterStep_set_of_last (g : ι → Option σ) (v : ι → α) (i' : σ) (n₀ : ι) (h₀ : g n₀ = some i')
    (L₁ L₂ : List ι) (x : σ → α) (h : ∀ n ∈ L₂, g n ≠ some i') :
    (L₁ ++ n₀ :: L₂).foldl (scatterStep g (fun _ b => b) v) x i' = v n₀ := by
  rw [List.foldl_append, List.foldl_cons, foldl_scatterStep_of_miss g _ v i' L₂ _ h,
    scatterStep_of_eq g _ v _ n₀ i' h₀]

/-- A scan none of whose positions satisfies `p` keeps its start value. -/
theorem foldl_ite_of_none (p : ι → Prop) [DecidablePred p] (f : ι → β) :
    ∀ (L : List ι) (a : β), (∀ n ∈ L, ¬ p n) → L.foldl (fun acc n => if p n then f n else acc) a = a
  | [], _, _ => rfl
  | n :: L, a, h => by
    rw [List.foldl_cons, if_neg (h n List.mem_cons_self)]
    exact foldl_ite_of_none p f L a (fun m hm => h m (List.mem_cons_of_mem _ hm))

/-- A scan in which `n₀` satisfies `p` and no later position does ends with `f n₀`. -/
theorem foldl_ite_of_last (p : ι → Prop) [DecidablePred p] (f : ι → β) (n₀ : ι) (h₀ : p n₀)
    (L₁ L₂ : List ι) (a : β) (h : ∀ n ∈ L₂, ¬ p n) :
    (L₁ ++ n₀ :: L₂).foldl (fun acc n => if p n then f n else acc) a = f n₀ := by
  rw [List.foldl_append, List.foldl_cons, if_pos h₀]
  exact foldl_ite_of_none p f L₂ _ h

end Fold

/-- The increasing list of the positions below `N`, split at `n₀`: what comes after is larger. -/
theorem finRange_split {N : Nat} (n₀ : Fin N) :
    ∃ L₁ L₂ : List (Fin N), List.finRange N = L₁ ++ n₀ :: L₂ ∧ ∀ n ∈ L₂, n₀ < n := by
  obtain ⟨L₁, L₂, h⟩ := List.append_of_mem (List.mem_finRange n₀)
  refine ⟨L₁, L₂, h, ?_⟩
  have hp := List.pairwise_lt_finRange N
  rw [h] at hp
  exact (List.pairwise_cons.1 (List.pairwise_append.1 hp).2.1).1

section Scan

variable {β : Type} {N : Nat}

/-- A scan over all positions below `N` in increasing order, none satisfying `p`: the start value. -/
theorem finRange_foldl_ite_of_none (p : Fin N → Prop) [DecidablePred p] (f : Fin N → β) (a : β) (h : ∀ n, ¬ p n) :
    (List.finRange N).foldl (fun acc n => if p n then f n else acc) a = a :=
  foldl_ite_of_none p f _ a (fun n _ => h n)

/-- A scan over all positions below `N` in increasing order: the largest position satisfying `p` decides. -/
theorem finRange_foldl_ite_of_last (p : Fin N → Prop) [DecidablePred p] (f : Fin N → β) (a : β) (n₀ : Fin N)
    (h₀ : p n₀) (h : ∀ n, n₀ < n → ¬ p n) :
    (List.finRange N).foldl (fun acc n => if p n then f n else acc) a = f n₀ := by
  obtain ⟨L₁, L₂, hL, hgt⟩ := finRange_split n₀
  rw [hL]
  exact foldl_ite_of_last p f n₀ h₀ L₁ L₂ a (fun n hn => h n (hgt n hn))

end Scan

section Scatter

variable {s si u : Shape} {α : Type} {w : Nat}

/-- An element of the operand on which update `j₀` lands, no update later in row-major order landing there, holds
    `j₀`'s value after a scatter whose body keeps the update. -/
theorem Host.scatter_set_apply_of_last (d : ScatterDims s si u) (x : s.Idx → α) (idx : IVec si w) (upd : u.Idx → α)
    (i' : s.Idx) (j₀ : u.Idx) (h₀ : d.resultIdx? j₀ idx = some i')
    (hl : ∀ j : u.Idx, u.rowMajor j₀ < u.rowMajor j → d.resultIdx? j idx ≠ some i') :
    Host.scatter d (fun _ b => b) x idx upd i' = upd j₀ := by
  rw [Host.scatter_eq_foldl]
  obtain ⟨L₁, L₂, hL, hgt⟩ := finRange_split (u.rowMajor j₀)
  rw [hL]
  have := foldl_scatterStep_set_of_last (fun n => d.resultIdx? (u.rowMajor.symm n) idx)
    (fun n => upd (u.rowMajor.symm n)) i' (u.rowMajor j₀) (by simp only [Equiv.symm_apply_apply]; exact h₀) L₁ L₂ x
    (fun n hn => hl (u.rowMajor.symm n) (by rw [Equiv.apply_symm_apply]; exact hgt n hn))
  rw [this]
  simp only [Equiv.symm_apply_apply]

end Scatter

end Idealize.ShloMosaic
-- ==== Proof.RefValue.lean ====
/-
  The reference's result, entry by entry, for selection indices inside the bank axis. The scatter writes update
  (b', k, d') onto entry (b', bank named by slot k of row b', d'), so the updates that land on entry (b, o, d) are the
  (b, k, d) whose slot k names bank o, met in the order of k. If no slot names o the entry keeps the state's value; if
  some do, the last of them (the scatter keeps the update, and later updates overwrite earlier ones) leaves its
  interpolated value there.
-/
import proofs.«408366_j9354438771004_3_alg».proof.Proof.RefIndex
import proofs.«408366_j9354438771004_3_alg».proof.Proof.LibScatterLast

noncomputable section

namespace Cert.ReferenceIdeal.BlendRef

open Cert.ReferenceIdeal Cert.ReferenceIdeal.Gen Cert.ReferenceIdeal.ReadP Idealize.ShloMosaic Idealize.ShloMosaic.ValueIdx

/-- A word below 128 names bank `o` exactly when it is the word `o`. -/
theorem bankOf_eq_iff (w : BitVec 32) (hw : w.toNat < 128) (o : Fin 128) : bankOf w = o ↔ w = BitVec.ofNat 32 o.val := by
  have ho := o.isLt
  constructor
  · intro h
    have hv : w.toNat % 128 = o.val := congrArg Fin.val h
    rw [Nat.mod_eq_of_lt hw] at hv
    apply BitVec.eq_of_toNat_eq
    rw [BitVec.toNat_ofNat, hv]
    omega
  · intro h
    apply Fin.ext
    show w.toNat % 128 = o.val
    rw [h, BitVec.toNat_ofNat]
    omega

/-- Three coordinates determine a rank-3 index. -/
theorem ix3_inj {n0 n1 n2 : Nat} {a a' : Fin n0} {b b' : Fin n1} {c c' : Fin n2} (h : ix3 a b c = ix3 a' b' c') :
    a = a' ∧ b = b' ∧ c = c' :=
  ⟨congrFun h 0, congrFun h 1, congrFun h 2⟩

/-- Update (a, k, c) lands on entry (b, o, d) exactly when it is of row b and column d and its slot names bank o. -/
theorem lands_iff (x2 : IVec S2048x8 32) (hx2 : ∀ j, (x2 j).toNat < 128) (a : Fin 2048) (k : Fin 8) (c : Fin 1024)
    (b : Fin 2048) (o : Fin 128) (d : Fin 1024) :
    scatter_S2048x128x1024_S2048x8x2_S2048x8x1024_2_01_01_2.resultIdx? (ix3 a k c) (val_main_v27 (F := Ideal) x2) = some (ix3 b o d)
      ↔ a = b ∧ c = d ∧ bankOf (x2 (ix2 b k)) = o := by
  rw [landing x2 hx2 a k c]
  constructor
  · intro h
    obtain ⟨h0, h1, h2⟩ := ix3_inj (Option.some.inj h)
    exact ⟨h0, h2, by rw [← h0]; exact h1⟩
  · rintro ⟨rfl, rfl, h1⟩
    rw [h1]

variable (x0 : S2048x128x1024.Idx → EReal) (x1 : S2048x1024.Idx → EReal) (x2 : IVec S2048x8 32) (x3 : S2048x8.Idx → EReal)

/-- No slot of row b names bank o: entry (b, o, d) keeps the state's value. -/
theorem ref_none (hx2 : ∀ j, (x2 j).toNat < 128) (b : Fin 2048) (o : Fin 128) (d : Fin 1024)
    (h : ∀ k, bankOf (x2 (ix2 b k)) ≠ o) :
    (val_main_v28 (F := Ideal) x0 x1 x2 x3 (ix3 b o d) : EReal) = x0 (ix3 b o d) := by
  unfold val_main_v28
  refine Host.scatter_apply_of_miss _ _ x0 _ _ (ix3 b o d) (fun j hj => ?_)
  obtain ⟨a, k, c, rfl⟩ : ∃ (a : Fin 2048) (k : Fin 8) (c : Fin 1024), j = ix3 a k c := ⟨j 0, j 1, j 2, eq_ix3 j⟩
  exact h k ((lands_iff x2 hx2 a k c b o d).1 hj).2.2

/-- Slot k₀ of row b names bank o and no later slot does: entry (b, o, d) holds slot k₀'s interpolation. -/
theorem ref_last (hx2 : ∀ j, (x2 j).toNat < 128) (b : Fin 2048) (o : Fin 128) (d : Fin 1024) (k₀ : Fin 8)
    (h₀ : bankOf (x2 (ix2 b k₀)) = o) (hl : ∀ k, k₀ < k → bankOf (x2 (ix2 b k)) ≠ o) :
    (val_main_v28 (F := Ideal) x0 x1 x2 x3 (ix3 b o d) : EReal)
      = (1 - x3 (ix2 b k₀)) * x0 (ix3 b o d) + x3 (ix2 b k₀) * x1 (ix2 b d) := by
  unfold val_main_v28
  rw [Host.scatter_set_apply_of_last _ x0 _ _ (ix3 b o d) (ix3 b k₀ d)
    ((lands_iff x2 hx2 b k₀ d b o d).2 ⟨rfl, rfl, h₀⟩)
    (fun j hlt hj => by
      obtain ⟨a, k, c, rfl⟩ : ∃ (a : Fin 2048) (k : Fin 8) (c : Fin 1024), j = ix3 a k c := ⟨j 0, j 1, j 2, eq_ix3 j⟩
      obtain ⟨h0, h2, h1⟩ := (lands_iff x2 hx2 a k c b o d).1 hj
      refine hl k ?_ h1
      have hlt' : ((⟨3, ![2048, 8, 1024]⟩ : Shape).rowMajor (ix3 b k₀ d)).val
          < ((⟨3, ![2048, 8, 1024]⟩ : Shape).rowMajor (ix3 a k c)).val := hlt
      rw [Shape.rowMajor_val_three, Shape.rowMajor_val_three] at hlt'
      have hlt'' : (b.val * 8 + k₀.val) * 1024 + d.val < (a.val * 8 + k.val) * 1024 + c.val := hlt'
      have ha : a.val = b.val := congrArg Fin.val h0
      have hc : c.val = d.val := congrArg Fin.val h2
      show k₀.val < k.val
      omega),
    update_apply x0 x1 x2 x3 hx2 b k₀ d, h₀]

end Cert.ReferenceIdeal.BlendRef

end
-- ==== Proof.BlendLaw.lean ====
/-
  The scan of a row's eight slots, by cases, and the law that joins the two programs' arithmetic.

  Either no slot of the row names the bank, and the winning probability is zero; or there is a last slot naming it,
  and the winning probability is that slot's. On real numbers the two programs' forms of the blend agree:
  `s + p · (u − s) = (1 − p) · s + p · u`, and with probability zero the blend leaves `s`.
-/
import proofs.«408366_j9354438771004_3_alg».proof.Proof.Spec
import proofs.«408366_j9354438771004_3_alg».proof.Proof.LibScatterLast
import Mathlib.Data.EReal.Operations
import Mathlib.Tactic.Ring

noncomputable section

namespace Cert.Blend

open Idealize.ShloMosaic Idealize.ShloMosaic.ValueIdx

/-- Among eight slots, either none satisfies `p` or there is a last one that does. -/
theorem last_or_none (p : Fin 8 → Prop) [DecidablePred p] :
    (∀ k, ¬ p k) ∨ ∃ k₀, p k₀ ∧ ∀ k, k₀ < k → ¬ p k := by
  by_cases h : ∃ k, p k
  · right
    obtain ⟨k, hk⟩ := h
    obtain ⟨k₀, hk₀, hmax⟩ := Finset.exists_max_image (Finset.univ.filter p) id ⟨k, by simp [hk]⟩
    refine ⟨k₀, (Finset.mem_filter.1 hk₀).2, fun k' hlt hp => ?_⟩
    have hle : k' ≤ k₀ := hmax k' (by simp [hp])
    exact absurd hlt (not_lt.2 hle)
  · left
    exact fun k hk => h ⟨k, hk⟩

/-- No slot of row b names bank o: the winning probability is zero. -/
theorem winProb_of_none (idx : IVec SSel 32) (pr : SSel.Idx → EReal) (b : Fin 2048) (o : Fin 128)
    (h : ∀ k, idx (ix2 b k) ≠ BitVec.ofNat 32 o.val) : winProb idx pr b o = 0 :=
  finRange_foldl_ite_of_none (fun k : Fin 8 => idx (ix2 b k) = BitVec.ofNat 32 o.val) (fun k => pr (ix2 b k)) (0 : EReal) h

/-- Slot k₀ of row b names bank o and no later slot does: the winning probability is slot k₀'s. -/
theorem winProb_of_last (idx : IVec SSel 32) (pr : SSel.Idx → EReal) (b : Fin 2048) (o : Fin 128) (k₀ : Fin 8)
    (h₀ : idx (ix2 b k₀) = BitVec.ofNat 32 o.val) (hl : ∀ k, k₀ < k → idx (ix2 b k) ≠ BitVec.ofNat 32 o.val) :
    winProb idx pr b o = pr (ix2 b k₀) :=
  finRange_foldl_ite_of_last (fun k : Fin 8 => idx (ix2 b k) = BitVec.ofNat 32 o.val) (fun k => pr (ix2 b k)) (0 : EReal) k₀ h₀ hl

/-- On real numbers, moving by the fraction p from s toward u is the weighted mean of s and u. -/
theorem blend_law (s u p : ℝ) :
    ((s : EReal) + (p : EReal) * ((u : EReal) - (s : EReal))) = (1 - (p : EReal)) * (s : EReal) + (p : EReal) * (u : EReal) := by
  rw [← EReal.coe_one, ← EReal.coe_sub, ← EReal.coe_sub, ← EReal.coe_mul, ← EReal.coe_mul, ← EReal.coe_mul,
    ← EReal.coe_add, ← EReal.coe_add]
  congr 1
  ring

/-- With probability zero the blend leaves the state's value. -/
theorem blend_zero (s x : EReal) : s + 0 * x = s := by
  rw [zero_mul, add_zero]

end Cert.Blend

end
-- ==== Proof.RefBlend.lean ====
/-
  The reference computes the blend. For entries that are real numbers and selection indices that are bank numbers,
  entry (b, o, d) of the reference's result is the blend's: if no slot of row b names bank o both are the state's
  value (the winning probability is zero); otherwise the last slot naming o decides both, and the reference's
  `(1 − p) · s + p · u` is the blend's `s + p · (u − s)` on real numbers.
-/
import proofs.«408366_j9354438771004_3_alg».proof.Proof.RefValue
import proofs.«408366_j9354438771004_3_alg».proof.Proof.BlendLaw

noncomputable section

namespace Cert.ReferenceIdeal.BlendRef

open Cert.ReferenceIdeal Cert.ReferenceIdeal.Gen Cert.ReferenceIdeal.ReadP Idealize.ShloMosaic Idealize.ShloMosaic.ValueIdx

/-- The reference's result array is the blend of its four argument arrays. -/
theorem ref_eq_blend (x0 : S2048x128x1024.Idx → EReal) (x1 : S2048x1024.Idx → EReal) (x2 : IVec S2048x8 32) (x3 : S2048x8.Idx → EReal)
    (h0 : ∀ j, ∃ r : ℝ, x0 j = (r : EReal)) (h1 : ∀ j, ∃ r : ℝ, x1 j = (r : EReal))
    (h2 : ∀ j, (x2 j).toNat < 128) (h3 : ∀ j, ∃ r : ℝ, x3 j = (r : EReal)) :
    (val_main_v28 (F := Ideal) x0 x1 x2 x3 : S2048x128x1024.Idx → EReal) = Cert.Blend.blend x0 x1 x2 x3 := by
  funext j
  obtain ⟨b, o, d, rfl⟩ : ∃ (b : Fin 2048) (o : Fin 128) (d : Fin 1024), j = ix3 b o d := ⟨j 0, j 1, j 2, eq_ix3 j⟩
  show _ = x0 (ix3 b o d) + Cert.Blend.winProb x2 x3 b o * (x1 (ix2 b d) - x0 (ix3 b o d))
  rcases Cert.Blend.last_or_none (fun k => x2 (ix2 b k) = BitVec.ofNat 32 o.val) with hn | ⟨k₀, hk₀, hl⟩
  · rw [ref_none x0 x1 x2 x3 h2 b o d (fun k hk => hn k ((bankOf_eq_iff _ (h2 _) o).1 hk)),
      Cert.Blend.winProb_of_none x2 x3 b o hn, Cert.Blend.blend_zero]
  · rw [ref_last x0 x1 x2 x3 h2 b o d k₀ ((bankOf_eq_iff _ (h2 _) o).2 hk₀)
        (fun k hlt hk => hl k hlt ((bankOf_eq_iff _ (h2 _) o).1 hk)),
      Cert.Blend.winProb_of_last x2 x3 b o k₀ hk₀ hl]
    obtain ⟨s, hs⟩ := h0 (ix3 b o d)
    obtain ⟨u, hu⟩ := h1 (ix2 b d)
    obtain ⟨p, hp⟩ := h3 (ix2 b k₀)
    rw [hs, hu, hp]
    exact (Cert.Blend.blend_law s u p).symm

end Cert.ReferenceIdeal.BlendRef

end
-- ==== Proof.PreDecode.lean ====
/-
  What the precondition says of the four arrays: every entry of the three float arrays is a real number (its
  absolute value is below +∞), and every selection index is a bank number, 0 ≤ index < 128 — read as a 32-bit word,
  below 128.
-/
import proofs.«408366_j9354438771004_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Blend.PreDecode

open Idealize.ShloMosaic Idealize.ShloMosaic.ValueIdx Cert.Pre_finite_inputs

/-- An extended real whose absolute value max x (−x) lies strictly below +∞ is a real number: at −∞ the absolute value is
    +∞, at +∞ likewise, and neither is below +∞. The pattern 0x7F800000 denotes +∞. -/
theorem real_of_abs_lt_top (x : Ideal .f32)
    (h : FloatOps.cmpf (F := Ideal) .olt (FloatOps.hostAbsf x) (FloatOps.ofBits .f32 0x7F800000#32) = 1#1) :
    ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  induction x using EReal.rec with
  | bot => exact absurd h (by simp [Ideal.cmp])
  | top => exact absurd h (by simp [Ideal.cmp])
  | coe r => exact ⟨r, rfl⟩

/-- A 32-bit word that tests signed ≥ 0 and signed < 128 is, read unsigned, below 128: a word whose signed value is
    not negative has the same signed and unsigned value. -/
theorem toNat_lt_of_cmpi (w : BitVec 32) (h0 : IntOp.cmpi .sge w 0#32 = 1#1) (h1 : IntOp.cmpi .slt w 128#32 = 1#1) :
    w.toNat < 128 := by
  rw [IntOp.cmpi_sge] at h0
  rw [IntOp.cmpi_slt] at h1
  have e0 : (0#32 : BitVec 32).toInt = 0 := by decide
  have e1 : (128#32 : BitVec 32).toInt = 128 := by decide
  rw [e0] at h0
  rw [e1] at h1
  have hw : w.toInt = w.toNat := by
    rw [BitVec.toInt_eq_toNat_cond] at h0 ⊢
    split at h0 <;> rename_i hc
    · rw [if_pos hc]
    · exfalso; have := w.isLt; omega
  omega

/-- The shape with no axes has one index. -/
local instance : Subsingleton S_.Idx := ⟨fun a b => funext fun d => d.elim0⟩

/-- `jnp.all(|x| < +inf)` over a float array of any shape: if the conjunction over all entries is 1, every entry is a
    real number. -/
theorem all_real {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi (cmpf .olt (Host.absf x) (broadcastInDim s ![] hb (constant S_ .f32 0x7F800000#32)))
      (constantI S_ 1 1#1) hr h0 ix0 = 1#1) (j : s.Idx) : ∃ r : ℝ, x j = (r : EReal) :=
  real_of_abs_lt_top (x j) (Host.reduce_andi_all _ _ hr h0 ix0 h j)

/-- `jnp.all((a >= 0) & (a < 128))` over a word array of any shape: if the conjunction over all entries is 1, every
    word is below 128. -/
theorem all_lt {s : Shape} {axes : List (Fin s.rank)} (a : IVec s 32)
    (hb : S_.BroadcastsInDim s (![] : Fin 0 → Fin s.rank)) (hr : s.ReducesTo axes S_) (h0 : 0 < S_.numel)
    (h : Host.reduce IntOp.andi
      (andi (cmpi .sge a (broadcastInDim s ![] hb (constantI S_ 32 0#32)))
        (cmpi .slt a (broadcastInDim s ![] hb (constantI S_ 32 128#32))))
      (constantI S_ 1 1#1) hr h0 ix0 = 1#1) (j : s.Idx) : (a j).toNat < 128 := by
  have hj := Host.reduce_andi_all _ _ hr h0 ix0 h j
  obtain ⟨h1, h2⟩ := IntOp.andi_eq_one.1 hj
  exact toNat_lt_of_cmpi (a j) h1 h2

/-- The precondition, opened: real entries and bank numbers. -/
theorem decode [Cert.Pre_finite_inputs.Facts] (a0 : FVec Ideal S2048x128x1024 .f32) (a1 : FVec Ideal S2048x1024 .f32)
    (a2 : IVec S2048x8 32) (a3 : FVec Ideal S2048x8 .f32)
    (h : Cert.Pre_finite_inputs.fn (F := Ideal) a0 a1 a2 a3 = fun _ => 1#1) :
    (∀ j, ∃ r : ℝ, a0 j = (r : EReal)) ∧ (∀ j, ∃ r : ℝ, a1 j = (r : EReal))
      ∧ (∀ j, (a2 j).toNat < 128) ∧ (∀ j, ∃ r : ℝ, a3 j = (r : EReal)) := by
  -- the result is the conjunction ((all₀ ∧ all₁) ∧ all₃) ∧ all₂ of the four `jnp.all`s, read at the one index
  have h0 := congrFun h ValueIdx.ix0
  dsimp only [Cert.Pre_finite_inputs.fn, Cert.Pre_finite_inputs.fn_part1] at h0
  obtain ⟨h013, h2⟩ := IntOp.andi_eq_one.1 h0
  obtain ⟨h01, h3⟩ := IntOp.andi_eq_one.1 h013
  obtain ⟨h0', h1⟩ := IntOp.andi_eq_one.1 h01
  exact ⟨all_real a0 _ _ _ h0', all_real a1 _ _ _ h1, all_lt a2 _ _ _ h2, all_real a3 _ _ _ h3⟩

end Cert.Blend.PreDecode

end
-- ==== Proof.lean ====
/-
  The kernel against its reference: a gather–interpolate–scatter along the bank axis.

  The reference gathers, for every batch row b and slot k, the bank row `state[b, sel_index[b,k], :]`, moves it toward
  the row's substate by the slot's probability, `(1 − p) · gathered + p · substate[b, :]`, and scatters the result
  back onto the same bank; where several slots of a row name one bank, the scatter keeps the last. The kernel never
  gathers: it scans each row's eight slots in order into a map of winning probabilities — the probability of the last
  slot naming the bank, zero where none does — and blends every bank row by it, `state + p · (substate − state)`.

  Both are one function of the four argument arrays (`Cert.Blend.blend`) when the float entries are real numbers and
  the selection indices are bank numbers, 0 ≤ index < 128, which is what the precondition states: an index outside the
  bank axis is outside the reference's own domain (a negative one is wrapped by the reference's indexing, which the
  kernel's comparison with the bank numbers does not follow). On the kernel's side each grid point writes the blend of
  its sixteen rows and the 128 blocks tile the result; on the reference's side an entry on which no update lands keeps
  the state's value, and one on which some land holds the last one's, which on real numbers is the blend's.
  The three programs run to the end leaving their arguments as they were (the frames), and the idealized kernel is the
  kernel's own text read over the extended reals (no rewrite was applied).
-/
import proofs.«408366_j9354438771004_3_alg».proof.Defs
import proofs.«408366_j9354438771004_3_alg».proof.Proof.Gen.Kernel
import proofs.«408366_j9354438771004_3_alg».proof.Proof.Gen.Kernel.Frame
import proofs.«408366_j9354438771004_3_alg».proof.Proof.Gen.KernelIdeal
import proofs.«408366_j9354438771004_3_alg».proof.Proof.Gen.KernelIdeal.Frame
import proofs.«408366_j9354438771004_3_alg».proof.Proof.Gen.ReferenceIdeal
import proofs.«408366_j9354438771004_3_alg».proof.Proof.Gen.Pre_finite_inputs
import proofs.«408366_j9354438771004_3_alg».proof.Proof.RefRun
import proofs.«408366_j9354438771004_3_alg».proof.Proof.RefRead
import proofs.«408366_j9354438771004_3_alg».proof.Proof.KernelValue
import proofs.«408366_j9354438771004_3_alg».proof.Proof.RefBlend
import proofs.«408366_j9354438771004_3_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel :=
  fun m ρ _ => Cert.Kernel.Gen.frame m ρ

/-- So does the kernel read over the extended reals. -/
theorem frame_kernelIdeal : Cert.frame_KernelIdeal :=
  fun m ρ _ => Cert.KernelIdeal.Gen.frame m ρ

/-- So does the reference: its run, with the result forgotten. -/
theorem frame_referenceIdeal : Cert.frame_ReferenceIdeal :=
  fun m ρ _ => (θ_run Cert.ReferenceIdeal.defs _ _).mono (fun _ h c => (h c).2)
    (Cert.ReferenceIdeal.ValueP.run (F := Ideal) m ρ)

/-- Over the extended reals both programs end with the blend of the argument arrays: the kernel by its blocks, the
    reference by its scatter read entry by entry, under real entries and bank-number indices. -/
theorem algebraic : Cert.algebraic_KernelIdeal_ReferenceIdeal := by
  intro m ρ m' ρ' hpre hagree
  refine ⟨fun c => Cert.Blend.blend (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.BlendValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3⟩ := Cert.Blend.PreDecode.decode _ _ _ _ (hpre c)
  refine (Cert.ReferenceIdeal.ReadP.val_main_v28_eq (F := Ideal) _ _ _ _).trans ?_
  rw [(hagree c).1, (hagree c).2.1, (hagree c).2.2.1, (hagree c).2.2.2]
  exact Cert.ReferenceIdeal.BlendRef.ref_eq_blend _ _ _ _ h0 h1 h2 h3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
